-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  IdealRules.truncf_extf.Statement Cert.KernelIdeal.S16384x64 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S_ : Shape := ⟨0, ![]⟩

class Facts : Prop where
  bcast_S_S1024x64 : S_.BroadcastsInDim S1024x64 (![] : Fin 0 → Fin S1024x64.rank)
  reducesTo_S1024x64_S_d0_1 : S1024x64.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg11 : FVec F S64 .f32) (main_arg12 : FVec F S64x1 .f32) (main_arg13 : FVec F S1 .f32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S64x1 .f32 := Host.absf main_arg12
  let main_cst_22 : FVec F S_ .f32 := constant S_ .f32 0x7F800000#32
  let main_v60 : FVec F S64x1 .f32 := broadcastInDim S64x1 ![] bcast_S_S64x1 main_cst_22
  let main_v61 : IVec S64x1 1 := cmpf .olt main_v59 main_v60
  let main_c_23 : IVec S_ 1 := constantI S_ 1 1#1
  let main_v62 : IVec S_ 1 := (fun x v => Host.reduce IntOp.andi x v reducesTo_S64x1_S_d0_1 h_S_) main_v61 main_c_23
  let main_v63 : IVec S_ 1 := andi main_v58 main_v62
  let main_v64 : FVec F S1 .f32 := Host.absf main_arg13
  let main_cst_24 : FVec F S_ .f32 := constant S_ .f32 0x7F800000#32
  let main_v65 : FVec F S1 .f32 := broadcastInDim S1 ![] bcast_S_S1 main_cst_24
  let main_v66 : IVec S1 1 := cmpf .olt main_v64 main_v65
  let main_c_25 : IVec S_ 1 := constantI S_ 1 1#1
  let main_v67 : IVec S_ 1 := (fun x v => Host.reduce IntOp.andi x v reducesTo_S1_S_d0 h_S_) main_v66 main_c_25
  fn_part4 (F := F) main_v63 main_v67

def fn_part2 {F : FTy → Type} [FloatOps F] (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x64 .f32 := Host.absf main_arg8
  let main_cst_14 : FVec F S_ .f32 := constant S_ .f32 0x7F800000#32
  let main_v40 : FVec F S64x64 .f32 := broadcastInDim S64x64 ![] bcast_S_S64x64 main_cst_14
  let main_v41 : IVec S64x64 1 := cmpf .olt main_v39 main_v40
  let main_c_15 : IVec S_ 1 := constantI S_ 1 1#1
  let main_v42 : IVec S_ 1 := (fun x v => Host.reduce IntOp.andi x v reducesTo_S64x64_S_d0_1 h_S_) main_v41 main_c_15
  let main_v43 : IVec S_ 1 := andi main_v38 main_v42
  let main_v44 : FVec F S64 .f32 := Host.absf main_arg9
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_v48 main_v49 main_v50

def fn_part1 {F : FTy → Type} [FloatOps F] (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg7 main_arg8 main_arg9 main_arg10 main_arg11 main_arg12 main_arg13 main_v33

def fn {F : FTy → Type} [FloatOps F] (main_arg0 : FVec F S1024x64 .f32) (main_arg1 : FVec F S1024x64 .f32) (main_arg2 : FVec F S128x128 .f32) (main_arg3 : FVec F S128 .f32) (main_arg4 : FVec F S128x128 .f32) (main_arg5 : FVec F S128 .f32) (main_arg6 : FVec F S128x64 .f32) (main_arg7 : FVec F S64 .f32) (main_arg8 : FVec F S64x64 .f32) (main_arg9 : FVec F S64 .f32) (main_arg10 : FVec F S64x64 .f32) (main_arg11 : FVec F S64 .f32) (main_arg12 : FVec F S64x1 .f32) (main_arg13 : FVec F S1 .f32) : IVec S_ 1 :=
  let main_v0 : FVec F S1024x64 .f32 := Host.absf main_arg0
  let main_cst : FVec F S_ .f32 := constant S_ .f32 0x7F800000#32
  let main_v1 : FVec F S1024x64 .f32 := broadcastInDim S1024x64 ![] bcast_S_S1024x64 main_cst
  let main_v2 : IVec S1024x64 1 := cmpf .olt main_v0 main_v1
  let main_c : IVec S_ 1 := constantI S_ 1 1#1
  let main_v3 : IVec S_ 1 := (fun x v => Host.reduce IntOp.andi x v reducesTo_S1024x64_S_d0_1 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_arg10 main_arg11 main_arg12 main_arg13 main_v13 main_v16
-- ==== Kernel.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S64x128 : Shape := ⟨2, ![64, 128]⟩
abbrev S1024x1024 : Shape := ⟨2, ![1024, 1024]⟩
abbrev S128x1x128 : Shape := ⟨3, ![128, 1, 128]⟩
abbrev S1x128x128 : Shape := ⟨3, ![1, 128, 128]⟩
abbrev S128x128x128 : Shape := ⟨3, ![128, 128, 128]⟩
abbrev S1x1x128 : Shape := ⟨3, ![1, 1, 128]⟩
abbrev S16384x128 : Shape := ⟨2, ![16384, 128]⟩
abbrev S1x128 : Shape := ⟨2, ![1, 128]⟩
abbrev S16384x64 : Shape := ⟨2, ![16384, 64]⟩
abbrev S1x64 : Shape := ⟨2, ![1, 64]⟩
abbrev S128x128x64 : Shape := ⟨3, ![128, 128, 64]⟩
abbrev S1x1x64 : Shape := ⟨3, ![1, 1, 64]⟩

abbrev nBuf : Space → Nat
  | .hbm => 17
  | .vmem => 19
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S64x128, .f32⟩
  | .hbm, ⟨15, _⟩ => ⟨S64x128, .f32⟩
  | .hbm, ⟨16, _⟩ => ⟨S1024x1024, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S64x128, .f32⟩
  | .local _ .vmem, ⟨5, _⟩ => ⟨S64x128, .f32⟩
  | .local _ .vmem, ⟨6, _⟩ => ⟨S128, .f32⟩
  | .local _ .vmem, ⟨7, _⟩ => ⟨S128x128, .f32⟩
  | .local _ .vmem, ⟨8, _⟩ => ⟨S128, .f32⟩
  | .local _ .vmem, ⟨9, _⟩ => ⟨S128x64, .f32⟩
  | .local _ .vmem, ⟨10, _⟩ => ⟨S64, .f32⟩
  | .local _ .vmem, ⟨11, _⟩ => ⟨S64x64, .f32⟩
  | .local _ .vmem, ⟨12, _⟩ => ⟨S64, .f32⟩
  | .local _ .vmem, ⟨13, _⟩ => ⟨S64x64, .f32⟩
  | .local _ .vmem, ⟨14, _⟩ => ⟨S64, .f32⟩
  | .local _ .vmem, ⟨15, _⟩ => ⟨S64x1, .f32⟩
  | .local _ .vmem, ⟨16, _⟩ => ⟨S1, .f32⟩
  | .local _ .vmem, ⟨17, _⟩ => ⟨S128x128, .f32⟩
  | .local _ .vmem, ⟨18, _⟩ => ⟨S128x128, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S64x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S64x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 2 → Memref sig .tc .vmem S128x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

class Facts₀ : Prop where
  slices_S128x128_S64x128_0_0 : S128x128.Slices ![0, 0] S64x128
  slices_S128x128_S64x128_64_0 : S128x128.Slices ![64, 0] S64x128
  inb_S128x64_S128x64_0_0 : ∀ a, (![0, 0] : Fin 2 → Nat) a + S128x64.size a ≤ S128x64.size a
  h_S128x64 : 0 < S128x64.numel
  bitsLt_bf16_f32 : FTy.bits .bf16 < FTy.bits .f32
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S128_S128_0 : ∀ a, (![0] : Fin 1 → Nat) a + S128.size a ≤ S128.size a
  h_S128 : 0 < S128.numel
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  shapeCasts_S128_S1x1x128 : S128.ShapeCasts S1x1x128
  broadcasts_S1x1x128_S128x128x128 : S1x1x128.Broadcasts S128x128x128
  shapeCasts_S128x128x128_S16384x128 : S128x128x128.ShapeCasts S16384x128
  inb_S128x128_S128x128_0_0 : ∀ a, (![0, 0] : Fin 2 → Nat) a + S128x128.size a ≤ S128x128.size a
  h_S128x128 : 0 < S128x128.numel
  shapeCasts_S128_S1x128 : S128.ShapeCasts S1x128
  broadcasts_S1x128_S16384x128 : S1x128.Broadcasts S16384x128
  inb_S64_S64_0 : ∀ a, (![0] : Fin 1 → Nat) a + S64.size a ≤ S64.size a
  h_S64 : 0 < S64.numel
  shapeCasts_S64_S1x64 : S64.ShapeCasts S1x64
  broadcasts_S1x64_S16384x64 : S1x64.Broadcasts S16384x64
  inb_S64x64_S64x64_0_0 : ∀ a, (![0, 0] : Fin 2 → Nat) a + S64x64.size a ≤ S64x64.size a
  h_S64x64 : 0 < S64x64.numel
  shapeCasts_S16384x64_S128x128x64 : S16384x64.ShapeCasts S128x128x64
  inb_S64x1_S64x1_0_0 : ∀ a, (![0, 0] : Fin 2 → Nat) a + S64x1.size a ≤ S64x1.size a
  h_S64x1 : 0 < S64x1.numel
  shapeCasts_S64x1_S64 : S64x1.ShapeCasts S64
  inb_S1_S1_0 : ∀ a, (![0] : Fin 1 → Nat) a + S1.size a ≤ S1.size a
  h_S1 : 0 < S1.numel
  shapeCasts_S64_S1x1x64 : S64.ShapeCasts S1x1x64
  broadcasts_S1x1x64_S128x128x64 : S1x1x64.Broadcasts S128x128x64
  reduces_S128x128x64_S128x128 : S128x128x64.Reduces [2] S128x128
  inpos_S1_p0 : ∀ a, (![0] : Fin 1 → Nat) a < S1.size a
  dot_S128x64_S64x128_S128x128_1_0_0_1_n_n_wf : DotDims.WF S128x64 S64x128 S128x128 [1] [0] [0] [1] [] []
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x64_S16384x64_1_0_0_1_n_n_wf : DotDims.WF S16384x64 S64x64 S16384x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S1024x64.size a
  hwx0_0 : ∀ i : grid0.Coords, EltTy.bits .f32 = 32 ∨ (Rect.block (s := S1024x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S1024x64.size a
  hwx0_1 : ∀ i : grid0.Coords, EltTy.bits .f32 = 32 ∨ (Rect.block (s := S1024x64) S128x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x128.size a ≤ S64x128.size a
  hwx0_2 : ∀ i : grid0.Coords, EltTy.bits .f32 = 32 ∨ (Rect.block (s := S64x128) S64x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .f32 = 32 ∨ (Rect.block (s := S64x128) S64x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128x64.size a ≤ S128x64.size a
  hwx0_7 : ∀ i : grid0.Coords, EltTy.bits .f32 = 32 ∨ (Rect.block (s := S128x64) S128x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S64.size a ≤ S64.size a
  hwx0_8 : ∀ i : grid0.Coords, EltTy.bits .f32 = 32 ∨ (Rect.block (s := S64) S64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64x64.size a ≤ S64x64.size a
  hwx0_9 : ∀ i : grid0.Coords, EltTy.bits .f32 = 32 ∨ (Rect.block (s := S64x64) S64x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64.size a ≤ S64.size a
  hwx0_10 : ∀ i : grid0.Coords, EltTy.bits .f32 = 32 ∨ (Rect.block (s := S64) S64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64x64.size a ≤ S64x64.size a
  hwx0_11 : ∀ i : grid0.Coords, EltTy.bits .f32 = 32 ∨ (Rect.block (s := S64x64) S64x64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64.size a ≤ S64.size a
  hwx0_12 : ∀ i : grid0.Coords, EltTy.bits .f32 = 32 ∨ (Rect.block (s := S64) S64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64x1.size a ≤ S64x1.size a
  hwx0_13 : ∀ i : grid0.Coords, EltTy.bits .f32 = 32 ∨ (Rect.block (s := S64x1) S64x1.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S1.size a ≤ S1.size a
  hwx0_14 : ∀ i : grid0.Coords, EltTy.bits .f32 = 32 ∨ (Rect.block (s := S1) S1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S128x128.size a ≤ S1024x1024.size a
  hwx0_15 : ∀ i : grid0.Coords, EltTy.bits .f32 = 32 ∨ (Rect.block (s := S1024x1024) S128x128.size (cc0_transform_15 i) (hinb0_15 i)).WholeWords (EltTy.packing .f32)

variable [Facts₀]

def dot_S128x64_S64x128_S128x128_1_0_0_1_n_n : DotDims S128x64 S64x128 S128x128 where
  lhsContracting := [1]
  rhsContracting := [0]
  lhsNonContracting := [0]
  rhsNonContracting := [1]
  lhsBatch := []
  rhsBatch := []
  wf := dot_S128x64_S64x128_S128x128_1_0_0_1_n_n_wf
def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x64_S16384x64_1_0_0_1_n_n : DotDims S16384x64 S64x64 S16384x64 where
  lhsContracting := [1]
  rhsContracting := [0]
  lhsNonContracting := [0]
  rhsNonContracting := [1]
  lhsBatch := []
  rhsBatch := []
  wf := dot_S16384x64_S64x64_S16384x64_1_0_0_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S128x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg8) S64x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg9) S64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg10) S64x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg11) S64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg12) S64x1.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg13) S1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v2) S128x128.size cc0_transform_15 reads0_15 true false 2 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

class Facts : Prop extends Facts₀ where

variable [Facts]
-- ==== ReferenceIdeal.lean ====
abbrev S1024x64 : Shape := ⟨2, ![1024, 64]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x64 : Shape := ⟨2, ![64, 64]⟩
abbrev S64x1 : Shape := ⟨2, ![64, 1]⟩
abbrev S1 : Shape := ⟨1, ![1]⟩
abbrev S1x1024x64 : Shape := ⟨3, ![1, 1024, 64]⟩
abbrev S1024x1024x64 : Shape := ⟨3, ![1024, 1024, 64]⟩
abbrev S1024x1x64 : Shape := ⟨3, ![1024, 1, 64]⟩
abbrev S1024x1024x128 : Shape := ⟨3, ![1024, 1024, 128]⟩
abbrev S1048576x128 : Shape := ⟨2, ![1048576, 128]⟩
abbrev S1x128 : Shape := ⟨2, ![1, 128]⟩
abbrev S_ : Shape := ⟨0, ![]⟩
abbrev S1048576x64 : Shape := ⟨2, ![1048576, 64]⟩
abbrev S1x64 : Shape := ⟨2, ![1, 64]⟩
abbrev S1048576x1 : Shape := ⟨2, ![1048576, 1]⟩
abbrev S1x1 : Shape := ⟨2, ![1, 1]⟩
abbrev S1024x1024 : Shape := ⟨2, ![1024, 1024]⟩

abbrev nBuf : Space → Nat
  | .hbm => 61
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S1024x64, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x64, .f32⟩
  | .hbm, ⟨7, _⟩ => ⟨S64, .f32⟩
  | .hbm, ⟨8, _⟩ => ⟨S64x64, .f32⟩
  | .hbm, ⟨9, _⟩ => ⟨S64, .f32⟩
  | .hbm, ⟨10, _⟩ => ⟨S64x64, .f32⟩
  | .hbm, ⟨11, _⟩ => ⟨S64, .f32⟩
  | .hbm, ⟨12, _⟩ => ⟨S64x1, .f32⟩
  | .hbm, ⟨13, _⟩ => ⟨S1, .f32⟩
  | .hbm, ⟨14, _⟩ => ⟨S1x1024x64, .f32⟩
  | .hbm, ⟨15, _⟩ => ⟨S1024x1024x64, .f32⟩
  | .hbm, ⟨16, _⟩ => ⟨S1024x1x64, .f32⟩
  | .hbm, ⟨17, _⟩ => ⟨S1024x1024x64, .f32⟩
  | .hbm, ⟨18, _⟩ => ⟨S1024x1024x128, .f32⟩
  | .hbm, ⟨19, _⟩ => ⟨S1048576x128, .f32⟩
  | .hbm, ⟨20, _⟩ => ⟨S1048576x128, .f32⟩
  | .hbm, ⟨21, _⟩ => ⟨S1x128, .f32⟩
  | .hbm, ⟨22, _⟩ => ⟨S1048576x128, .f32⟩
  | .hbm, ⟨23, _⟩ => ⟨S1048576x128, .f32⟩
  | .hbm, ⟨24, _⟩ => ⟨S_, .f32⟩
  | .hbm, ⟨25, _⟩ => ⟨S1048576x128, .f32⟩
  | .hbm, ⟨26, _⟩ => ⟨S1048576x128, .f32⟩
  | .hbm, ⟨27, _⟩ => ⟨S1048576x128, .f32⟩
  | .hbm, ⟨28, _⟩ => ⟨S1x128, .f32⟩
  | .hbm, ⟨29, _⟩ => ⟨S1048576x128, .f32⟩
  | .hbm, ⟨30, _⟩ => ⟨S1048576x128, .f32⟩
  | .hbm, ⟨31, _⟩ => ⟨S_, .f32⟩
  | .hbm, ⟨32, _⟩ => ⟨S1048576x128, .f32⟩
  | .hbm, ⟨33, _⟩ => ⟨S1048576x128, .f32⟩
  | .hbm, ⟨34, _⟩ => ⟨S1048576x64, .f32⟩
  | .hbm, ⟨35, _⟩ => ⟨S1x64, .f32⟩
  | .hbm, ⟨36, _⟩ => ⟨S1048576x64, .f32⟩
  | .hbm, ⟨37, _⟩ => ⟨S1048576x64, .f32⟩
  | .hbm, ⟨38, _⟩ => ⟨S_, .f32⟩
  | .hbm, ⟨39, _⟩ => ⟨S1048576x64, .f32⟩
  | .hbm, ⟨40, _⟩ => ⟨S1048576x64, .f32⟩
  | .hbm, ⟨41, _⟩ => ⟨S1048576x64, .f32⟩
  | .hbm, ⟨42, _⟩ => ⟨S1x64, .f32⟩
  | .hbm, ⟨43, _⟩ => ⟨S1048576x64, .f32⟩
  | .hbm, ⟨44, _⟩ => ⟨S1048576x64, .f32⟩
  | .hbm, ⟨45, _⟩ => ⟨S_, .f32⟩
  | .hbm, ⟨46, _⟩ => ⟨S1048576x64, .f32⟩
  | .hbm, ⟨47, _⟩ => ⟨S1048576x64, .f32⟩
  | .hbm, ⟨48, _⟩ => ⟨S1048576x64, .f32⟩
  | .hbm, ⟨49, _⟩ => ⟨S1x64, .f32⟩
  | .hbm, ⟨50, _⟩ => ⟨S1048576x64, .f32⟩
  | .hbm, ⟨51, _⟩ => ⟨S1048576x64, .f32⟩
  | .hbm, ⟨52, _⟩ => ⟨S_, .f32⟩
  | .hbm, ⟨53, _⟩ => ⟨S1048576x64, .f32⟩
  | .hbm, ⟨54, _⟩ => ⟨S1048576x64, .f32⟩
  | .hbm, ⟨55, _⟩ => ⟨S1048576x1, .f32⟩
  | .hbm, ⟨56, _⟩ => ⟨S1x1, .f32⟩
  | .hbm, ⟨57, _⟩ => ⟨S1048576x1, .f32⟩
  | .hbm, ⟨58, _⟩ => ⟨S1048576x1, .f32⟩
  | .hbm, ⟨59, _⟩ => ⟨S1024x1024, .f32⟩
  | .hbm, ⟨60, _⟩ => ⟨S1024x1024, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_call0_cst : Ref sig .tc := ⟨.hbm, 24, rfl⟩
abbrev main_call0_v0 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_call1_cst : Ref sig .tc := ⟨.hbm, 31, rfl⟩
abbrev main_call1_v0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_call2_cst : Ref sig .tc := ⟨.hbm, 38, rfl⟩
abbrev main_call2_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_call3_cst : Ref sig .tc := ⟨.hbm, 45, rfl⟩
abbrev main_call3_v0 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call4_cst : Ref sig .tc := ⟨.hbm, 52, rfl⟩
abbrev main_call4_v0 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]

class Facts₀ : Prop where
  bcast_S1024x64_S1x1024x64_1_2 : S1024x64.BroadcastsInDim S1x1024x64 (![1, 2] : Fin 2 → Fin S1x1024x64.rank)
  bcast_S1x1024x64_S1024x1024x64_0_1_2 : S1x1024x64.BroadcastsInDim S1024x1024x64 (![0, 1, 2] : Fin 3 → Fin S1024x1024x64.rank)
  bcast_S1024x64_S1024x1x64_0_2 : S1024x64.BroadcastsInDim S1024x1x64 (![0, 2] : Fin 2 → Fin S1024x1x64.rank)
  bcast_S1024x1x64_S1024x1024x64_0_1_2 : S1024x1x64.BroadcastsInDim S1024x1024x64 (![0, 1, 2] : Fin 3 → Fin S1024x1024x64.rank)
  concatenates_S1024x1024x64_S1024x1024x64_S1024x1024x128_d2 : Shape.Concatenates [S1024x1024x64, S1024x1024x64] S1024x1024x128 2
  shapeCasts_S1024x1024x128_S1048576x128 : S1024x1024x128.ShapeCasts S1048576x128
  bcast_S128_S1x128_1 : S128.BroadcastsInDim S1x128 (![1] : Fin 1 → Fin S1x128.rank)
  bcast_S1x128_S1048576x128_0_1 : S1x128.BroadcastsInDim S1048576x128 (![0, 1] : Fin 2 → Fin S1048576x128.rank)
  bcast_S_S1048576x128 : S_.BroadcastsInDim S1048576x128 (![] : Fin 0 → Fin S1048576x128.rank)
  bcast_S64_S1x64_1 : S64.BroadcastsInDim S1x64 (![1] : Fin 1 → Fin S1x64.rank)
  bcast_S1x64_S1048576x64_0_1 : S1x64.BroadcastsInDim S1048576x64 (![0, 1] : Fin 2 → Fin S1048576x64.rank)
  bcast_S_S1048576x64 : S_.BroadcastsInDim S1048576x64 (![] : Fin 0 → Fin S1048576x64.rank)
  bcast_S1_S1x1_1 : S1.BroadcastsInDim S1x1 (![1] : Fin 1 → Fin S1x1.rank)
  bcast_S1x1_S1048576x1_0_1 : S1x1.BroadcastsInDim S1048576x1 (![0, 1] : Fin 2 → Fin S1048576x1.rank)
  shapeCasts_S1048576x1_S1024x1024 : S1048576x1.ShapeCasts S1024x1024
  transposes_S1024x1024_S1024x1024_1_0 : S1024x1024.Transposes [1, 0] S1024x1024
  dot_S1048576x128_S128x128_S1048576x128_1_0_0_1_n_n_wf : DotDims.WF S1048576x128 S128x128 S1048576x128 [1] [0] [0] [1] [] []
  dot_S1048576x128_S128x64_S1048576x64_1_0_0_1_n_n_wf : DotDims.WF S1048576x128 S128x64 S1048576x64 [1] [0] [0] [1] [] []
  dot_S1048576x64_S64x64_S1048576x64_1_0_0_1_n_n_wf : DotDims.WF S1048576x64 S64x64 S1048576x64 [1] [0] [0] [1] [] []
  dot_S1048576x64_S64x1_S1048576x1_1_0_0_1_n_n_wf : DotDims.WF S1048576x64 S64x1 S1048576x1 [1] [0] [0] [1] [] []

variable [Facts₀]

def dot_S1048576x128_S128x128_S1048576x128_1_0_0_1_n_n : DotDims S1048576x128 S128x128 S1048576x128 where
  lhsContracting := [1]
  rhsContracting := [0]
  lhsNonContracting := [0]
  rhsNonContracting := [1]
  lhsBatch := []
  rhsBatch := []
  wf := dot_S1048576x128_S128x128_S1048576x128_1_0_0_1_n_n_wf
def dot_S1048576x128_S128x64_S1048576x64_1_0_0_1_n_n : DotDims S1048576x128 S128x64 S1048576x64 where
  lhsContracting := [1]
  rhsContracting := [0]
  lhsNonContracting := [0]
  rhsNonContracting := [1]
  lhsBatch := []
  rhsBatch := []
  wf := dot_S1048576x128_S128x64_S1048576x64_1_0_0_1_n_n_wf
def dot_S1048576x64_S64x64_S1048576x64_1_0_0_1_n_n : DotDims S1048576x64 S64x64 S1048576x64 where
  lhsContracting := [1]
  rhsContracting := [0]
  lhsNonContracting := [0]
  rhsNonContracting := [1]
  lhsBatch := []
  rhsBatch := []
  wf := dot_S1048576x64_S64x64_S1048576x64_1_0_0_1_n_n_wf
def dot_S1048576x64_S64x1_S1048576x1_1_0_0_1_n_n : DotDims S1048576x64 S64x1 S1048576x1 where
  lhsContracting := [1]
  rhsContracting := [0]
  lhsNonContracting := [0]
  rhsNonContracting := [1]
  lhsBatch := []
  rhsBatch := []
  wf := dot_S1048576x64_S64x1_S1048576x1_1_0_0_1_n_n_wf

class Facts : Prop extends Facts₀ where

variable [Facts]
-- ==== Proof.LibDense.lean ====
/-
  AN AFFINE LAYER READ AT AN ENTRY, at the extended reals. For a row-major product of an [M, K] matrix with a [K, N]
  matrix (one contracted axis, no batch axis) the contraction index is its one coordinate `k : Fin K`, and the entry
  (r, c) of the product is `∑ k, X (r, k) * W (k, c)`, whether the product is a block product into a zero accumulator or
  the host's dot product. An affine layer adds the bias row's entry of column c; the leaky rectifier keeps a non-negative
  entry and scales a negative one by the f32 word of 0.2.

  * `plain_dot_apply`, `plain_matmul_apply`: both products as that sum over `Fin K`;
  * `affine`, `leaky`, `denseLeaky`: the layer entry by entry; `affine_congr`: it only looks at row r, column c and
    the bias entry of column c, so a block of rows of X gives the same entries as the whole X at the block's rows;
  * `pay_affine`, `leaky_vec`: a block product plus a bias row repeated down the block, then the rectifier, as a vector
    unit writes them; `host_affine`, `leaky_host`: the same as host operations write them (the bias vector made a row
    and then repeated; the rectifier's constants as rank-0 splats).

  Every statement holds at any M, K, N (N = 1 included: a column of extent one has only the index 0).
-/
import Idealize.ShloMosaic.PureOps.Ideal.Laws
import Idealize.ShloMosaic.Lib.ValueIdx
import Idealize.ShloMosaic.Lib.Pipeline.Value

noncomputable section
namespace Cert.Lib.Dense
open Idealize.ShloMosaic
open Idealize.ShloMosaic.ValueIdx

abbrev ce (M K N : Nat) : (DotDims.plain M K N).contr.Idx ≃ Fin K := contrEquiv1 (DotDims.plain M K N) K rfl rfl

theorem plain_lhsIdx (M K N : Nat) (j : (⟨2, ![M, N]⟩ : Shape).Idx) (k : Fin K) :
    (DotDims.plain M K N).lhsIdx j ((ce M K N).symm k) = ix2 (n0 := M) (n1 := K) (j 0) k := by
  funext a; apply Fin.ext
  match a with
  | ⟨0, _⟩ => rfl
  | ⟨1, _⟩ =>
    exact (DotDims.lhsIdx_val_of_single (DotDims.plain M K N) (cl := 1) rfl j _).trans (contrEquiv1_symm_val _ K rfl rfl k)

theorem plain_rhsIdx (M K N : Nat) (j : (⟨2, ![M, N]⟩ : Shape).Idx) (k : Fin K) :
    (DotDims.plain M K N).rhsIdx j ((ce M K N).symm k) = ix2 (n0 := K) (n1 := N) k (j 1) := by
  funext a; apply Fin.ext
  match a with
  | ⟨0, _⟩ =>
    exact (DotDims.rhsIdx_val_of_single (DotDims.plain M K N) (cr := 0) rfl j _).trans (contrEquiv1_symm_val _ K rfl rfl k)
  | ⟨1, _⟩ => rfl

theorem plain_dot_apply (M K N : Nat) (prec : Option ContractPrecision) (sched : HostSchedule)
    (X : FVec Ideal ⟨2, ![M, K]⟩ .f32) (W : FVec Ideal ⟨2, ![K, N]⟩ .f32) (j : (⟨2, ![M, N]⟩ : Shape).Idx) :
    FloatOps.dotGeneral (DotDims.plain M K N) prec sched X W j = ∑ k : Fin K, X (ix2 (j 0) k) * W (ix2 k (j 1)) := by
  rw [Ideal.dotGeneral_apply, ← Equiv.sum_comp (ce M K N).symm]
  exact Finset.sum_congr rfl fun k _ => by rw [plain_lhsIdx, plain_rhsIdx]

theorem plain_matmul_apply (M K N : Nat) (prec : Option ContractPrecision)
    (X : FVec Ideal ⟨2, ![M, K]⟩ .f32) (W : FVec Ideal ⟨2, ![K, N]⟩ .f32) (j : (⟨2, ![M, N]⟩ : Shape).Idx) :
    FloatOps.matmul (DotDims.plain M K N) prec X W (constant _ .f32 0x00000000#32) j = ∑ k : Fin K, X (ix2 (j 0) k) * W (ix2 k (j 1)) := by
  rw [Ideal.matmul_constant_zero_apply, ← Equiv.sum_comp (ce M K N).symm]
  exact Finset.sum_congr rfl fun k _ => by rw [plain_lhsIdx, plain_rhsIdx]

/-- One entry of an affine layer: row `j 0` of `X` against column `j 1` of `W`, plus the bias row's entry of that column. -/
def affine {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal :=
  fun j => (∑ k : Fin K, X (ix2 (j 0) k) * W (ix2 k (j 1))) + B (ix2 0 (j 1))

/-- The leaky rectifier with slope the f32 word of 0.2, as both programs spell it: `y` where `y ≥ 0`, else the slope times `y`. -/
def leaky (y : EReal) : EReal :=
  Scalar.select (FloatOps.cmpf (F := Ideal) (φ := .f32) .oge y (Scalar.ofBits .f32 0x00000000#32)) y
    (FloatOps.mulf (F := Ideal) (φ := .f32) (Scalar.ofBits .f32 0x3E4CCCCD#32) y)

def denseLeaky {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := fun j => leaky (affine X W B j)

theorem affine_congr {Mb M K N : Nat} (xb : (⟨2, ![Mb, K]⟩ : Shape).Idx → EReal) (X : (⟨2, ![M, K]⟩ : Shape).Idx → EReal)
    (wb W : (⟨2, ![K, N]⟩ : Shape).Idx → EReal) (bb B : (⟨2, ![1, N]⟩ : Shape).Idx → EReal)
    (y : (⟨2, ![Mb, N]⟩ : Shape).Idx) (i : (⟨2, ![M, N]⟩ : Shape).Idx)
    (hx : ∀ k : Fin K, xb (ix2 (y 0) k) = X (ix2 (i 0) k)) (hw : ∀ k : Fin K, wb (ix2 k (y 1)) = W (ix2 k (i 1)))
    (hb : bb (ix2 0 (y 1)) = B (ix2 0 (i 1))) : affine xb wb bb y = affine X W B i := by
  unfold affine
  rw [hb]
  exact congrArg (· + _) (Finset.sum_congr rfl fun k _ => by rw [hx k, hw k])

/-- The kernel body's value at a block index: the block product into a zero accumulator plus the broadcast bias row. -/
theorem pay_affine {M K N : Nat} (x : FVec Ideal ⟨2, ![M, K]⟩ .f32) (w : FVec Ideal ⟨2, ![K, N]⟩ .f32) (b : FVec Ideal ⟨2, ![1, N]⟩ .f32)
    (sx : (⟨2, ![M, K]⟩ : Shape).ShapeCasts ⟨2, ![M, K]⟩) (sb : (⟨2, ![1, N]⟩ : Shape).ShapeCasts ⟨2, ![1, N]⟩)
    (bt : (⟨2, ![1, N]⟩ : Shape).Broadcasts ⟨2, ![M, N]⟩) (y : (⟨2, ![M, N]⟩ : Shape).Idx) :
    addf (matmul (DotDims.plain M K N) none (shapeCast ⟨2, ![M, K]⟩ x sx) w (constant ⟨2, ![M, N]⟩ .f32 0x00000000#32))
        (broadcastTo ⟨2, ![M, N]⟩ (shapeCast ⟨2, ![1, N]⟩ b sb) bt) y = affine x w b y := by
  rw [shapeCast_self, shapeCast_self]
  show FloatOps.matmul (DotDims.plain M K N) none x w (constant _ .f32 0x00000000#32) y + broadcastTo ⟨2, ![M, N]⟩ b bt y = _
  rw [plain_matmul_apply, broadcastTo_apply b bt y (ix2 0 (y 1))]
  · rfl
  · intro a
    match a with
    | ⟨0, _⟩ => simp
    | ⟨1, _⟩ =>
      show (y 1).val = if N = 1 then 0 else (y 1).val
      split_ifs with h
      · have := (y 1).isLt; simp at this; omega
      · rfl

/-- The kernel's rectifier read at an index. -/
theorem leaky_vec {S : Shape} (Y : FVec Ideal S .f32) (y : S.Idx) :
    select (cmpf .oge Y (broadcast S (Scalar.ofBits .f32 0x00000000#32))) Y (mulf (broadcast S (Scalar.ofBits .f32 0x3E4CCCCD#32)) Y) y = leaky (Y y) := rfl

/-- A splat of a rank-0 constant reads as the constant's value everywhere. -/
theorem splat0_apply {S : Shape} (w : BitVec 32) (e : (⟨0, ![]⟩ : Shape).BroadcastsInDim S (![] : Fin 0 → Fin S.rank)) (j : S.Idx) :
    broadcastInDim S ![] e (constant (F := Ideal) ⟨0, ![]⟩ .f32 w) j = Scalar.ofBits .f32 w := by
  rw [broadcastInDim_apply _ e _ j (fun a => a.elim0) (fun a => a.elim0)]
  rfl

/-- The host's rectifier read at an index. -/
theorem leaky_host {S : Shape} (Y : FVec Ideal S .f32) (e e' : (⟨0, ![]⟩ : Shape).BroadcastsInDim S (![] : Fin 0 → Fin S.rank)) (j : S.Idx) :
    select (cmpf .oge Y (broadcastInDim S ![] e (constant ⟨0, ![]⟩ .f32 0x00000000#32))) Y
      (mulf (broadcastInDim S ![] e' (constant ⟨0, ![]⟩ .f32 0x3E4CCCCD#32)) Y) j = leaky (Y j) := by
  show Scalar.select (FloatOps.cmpf .oge (Y j) (broadcastInDim S ![] e (constant (F := Ideal) ⟨0, ![]⟩ .f32 0x00000000#32) j)) (Y j)
      (FloatOps.mulf (broadcastInDim S ![] e' (constant (F := Ideal) ⟨0, ![]⟩ .f32 0x3E4CCCCD#32) j) (Y j)) = _
  rw [splat0_apply, splat0_apply]
  rfl

/-- The host's affine layer at an index: the dot product plus the bias vector, first made a row [1, N] and then
    repeated down the rows, is the affine layer over the bias reshaped to a row. -/
theorem host_affine {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (sc : (⟨1, ![N]⟩ : Shape).ShapeCasts ⟨2, ![1, N]⟩) (j : (⟨2, ![M, N]⟩ : Shape).Idx) :
    addf (Host.dotGeneral (DotDims.plain M K N) none X W)
        (broadcastInDim ⟨2, ![M, N]⟩ ![0, 1] e2 (broadcastInDim ⟨2, ![1, N]⟩ ![1] e1 b)) j
      = affine X W (shapeCast ⟨2, ![1, N]⟩ b sc) j := by
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1)),
    shapeCast_addUnit_apply ![N] b sc (ix2 0 (j 1))]
  · refine congrArg b (funext fun a => ?_)
    match a with
    | ⟨0, _⟩ => rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- A bias vector as the one row of a [1, N] matrix. -/
def biasRow {N : Nat} (b : (⟨1, ![N]⟩ : Shape).Idx → EReal) : (⟨2, ![1, N]⟩ : Shape).Idx → EReal := fun i => b (ix1 (i 1))

/-- Reshaping a vector [N] to [1, N] gives that row. -/
theorem shapeCast_row {N : Nat} (b : FVec Ideal ⟨1, ![N]⟩ .f32) (sc : (⟨1, ![N]⟩ : Shape).ShapeCasts ⟨2, ![1, N]⟩) :
    shapeCast ⟨2, ![1, N]⟩ b sc = biasRow b := by
  funext i
  rw [shapeCast_addUnit_apply ![N] b sc i]
  refine congrArg b (funext fun a => ?_)
  match a with
  | ⟨0, _⟩ => rfl

/-- The host's affine layer, whole: its entries are `affine` over the bias row. -/
theorem host_affine_row {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2)) :
    addf (Host.dotGeneral (DotDims.plain M K N) none X W)
        (broadcastInDim ⟨2, ![M, N]⟩ ![0, 1] e2 (broadcastInDim ⟨2, ![1, N]⟩ ![1] e1 b)) = affine X W (biasRow b) := by
  funext j
  show FloatOps.dotGeneral (DotDims.plain M K N) none _ X W j + broadcastInDim ⟨2, ![M, N]⟩ ![0, 1] e2 (broadcastInDim ⟨2, ![1, N]⟩ ![1] e1 b) j = _
  rw [plain_dot_apply]
  unfold affine
  refine congrArg (_ + ·) ?_
  rw [broadcastInDim_apply _ e2 _ j (ix2 0 (j 1)), broadcastInDim_apply _ e1 b (ix2 0 (j 1)) (ix1 (j 1))]
  · rfl
  · intro a
    match a with
    | ⟨0, _⟩ =>
      show (j 1).val = if N = 1 then 0 else (j 1).val
      split_ifs with h
      · have := (j 1).isLt; simp at this; omega
      · rfl
  · intro a
    match a with
    | ⟨0, _⟩ => simp
    | ⟨1, _⟩ =>
      show (j 1).val = if N = 1 then 0 else (j 1).val
      split_ifs with h
      · have := (j 1).isLt; simp at this; omega
      · rfl

/-- The host's rectified affine layer, whole, is `denseLeaky` over the bias row. -/
theorem host_denseLeaky {M K N : Nat} (X : FVec Ideal ⟨2, ![M, K]⟩ .f32) (W : FVec Ideal ⟨2, ![K, N]⟩ .f32) (b : FVec Ideal ⟨1, ![N]⟩ .f32)
    (e1 : (⟨1, ![N]⟩ : Shape).BroadcastsInDim ⟨2, ![1, N]⟩ (![1] : Fin 1 → Fin 2))
    (e2 : (⟨2, ![1, N]⟩ : Shape).BroadcastsInDim ⟨2, ![M, N]⟩ (![0, 1] : Fin 2 → Fin 2))
    (e e' : (⟨0, ![]⟩ : Shape).BroadcastsInDim ⟨2, ![M, N]⟩ (![] : Fin 0 → Fin 2)) :
    select (cmpf .oge (addf (Host.dotGeneral (DotDims.plain M K N) none X W)
          (broadcastInDim ⟨2, ![M, N]⟩ ![0, 1] e2 (broadcastInDim ⟨2, ![1, N]⟩ ![1] e1 b)))
        (broadcastInDim ⟨2, ![M, N]⟩ ![] e (constant ⟨0, ![]⟩ .f32 0x00000000#32)))
      (addf (Host.dotGeneral (DotDims.plain M K N) none X W)
          (broadcastInDim ⟨2, ![M, N]⟩ ![0, 1] e2 (broadcastInDim ⟨2, ![1, N]⟩ ![1] e1 b)))
      (mulf (broadcastInDim ⟨2, ![M, N]⟩ ![] e' (constant ⟨0, ![]⟩ .f32 0x3E4CCCCD#32))
        (addf (Host.dotGeneral (DotDims.plain M K N) none X W)
          (broadcastInDim ⟨2, ![M, N]⟩ ![0, 1] e2 (broadcastInDim ⟨2, ![1, N]⟩ ![1] e1 b))))
      = denseLeaky X W (biasRow b) := by
  rw [host_affine_row]
  funext j
  exact leaky_host _ e e' j

/-- An affine layer with no rectifier, named like its rectified sibling. -/
def dense {M K N : Nat} (X : (⟨2, ![M, K]⟩ : Shape).Idx → EReal) (W : (⟨2, ![K, N]⟩ : Shape).Idx → EReal)
    (B : (⟨2, ![1, N]⟩ : Shape).Idx → EReal) : (⟨2, ![M, N]⟩ : Shape).Idx → EReal := affine X W B

end Cert.Lib.Dense
-- ==== Proof.Mlp.lean ====
/-
  The pairwise critic as plain mathematics over the extended reals.

  For a row u of x and a row v of y the score is a six-layer perceptron of the 128-vector (u, v): five rectified
  dense layers of widths 128, 128, 64, 64, 64 and a last dense layer with one output column. A rectified dense
  layer sends a row h to  c ↦ max (∑ j, h j * W (j, c) + b c) 0.

  The first layer can be written in two ways. Reading (u, v) as ONE row of 128 entries it is an ordinary dense
  layer with the 128 × 128 weight W. Reading u and v apart it is  c ↦ max ((∑ k, u k * W (k, c)) + (∑ k, v k * W (64 + k, c)) + b c) 0,
  the sums over the upper and the lower 64 rows of W. The two agree because a sum over 128 = 64 + 64 indices is the
  sum of its two halves, which holds in any commutative additive monoid and so at infinite entries too.
-/
import Idealize.ShloMosaic.PureOps.Ideal
import Idealize.ShloMosaic.Lib.ValueIdx
import Mathlib.Algebra.BigOperators.Fin

noncomputable section

namespace Cert.Critic

open Idealize.ShloMosaic Idealize.ShloMosaic.ValueIdx

/-- A dense layer followed by the rectifier, applied to one row. -/
def hidden {n k : Nat} (W : (⟨2, ![n, k]⟩ : Shape).Idx → EReal) (b : (⟨1, ![k]⟩ : Shape).Idx → EReal)
    (h : Fin n → EReal) : Fin k → EReal :=
  fun c => max ((∑ j : Fin n, h j * W (ix2 j c)) + b (ix1 c)) 0

/-- The last layer: one output column and no rectifier. -/
def score {n : Nat} (W : (⟨2, ![n, 1]⟩ : Shape).Idx → EReal) (b : (⟨1, ![1]⟩ : Shape).Idx → EReal)
    (h : Fin n → EReal) : EReal :=
  (∑ j : Fin n, h j * W (ix2 j (0 : Fin 1))) + b (ix1 (0 : Fin 1))

/-- The first layer on a pair of rows, the weight given as its upper and lower 64 rows. -/
def firstSplit (wx wy : (⟨2, ![64, 128]⟩ : Shape).Idx → EReal) (b : (⟨1, ![128]⟩ : Shape).Idx → EReal)
    (u v : Fin 64 → EReal) : Fin 128 → EReal :=
  fun c => max (((∑ k : Fin 64, u k * wx (ix2 k c)) + (∑ k : Fin 64, v k * wy (ix2 k c))) + b (ix1 c)) 0

/-- The rows 0 … 63 of a 128 × 128 matrix. -/
def upperRows (W : (⟨2, ![128, 128]⟩ : Shape).Idx → EReal) : (⟨2, ![64, 128]⟩ : Shape).Idx → EReal :=
  fun i => W (ix2 (⟨(i 0).val, Nat.lt_of_lt_of_le (idx2_lt0 i) (by decide)⟩ : Fin 128) (⟨(i 1).val, idx2_lt1 i⟩ : Fin 128))

/-- The rows 64 … 127 of a 128 × 128 matrix. -/
def lowerRows (W : (⟨2, ![128, 128]⟩ : Shape).Idx → EReal) : (⟨2, ![64, 128]⟩ : Shape).Idx → EReal :=
  fun i => W (ix2 (⟨64 + (i 0).val, by have := idx2_lt0 i; omega⟩ : Fin 128) (⟨(i 1).val, idx2_lt1 i⟩ : Fin 128))

/-- The row (u, v) of 128 entries. -/
def joined (u v : Fin 64 → EReal) : Fin 128 → EReal :=
  fun k => if h : k.val < 64 then u ⟨k.val, h⟩ else v ⟨k.val - 64, by have := k.isLt; omega⟩

/-- The layers after the first. -/
def upperLayers (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 64]⟩ : Shape).Idx → EReal) (b4 : (⟨1, ![64]⟩ : Shape).Idx → EReal)
    (W5 : (⟨2, ![64, 1]⟩ : Shape).Idx → EReal) (b5 : (⟨1, ![1]⟩ : Shape).Idx → EReal)
    (h0 : Fin 128 → EReal) : EReal :=
  score W5 b5 (hidden W4 b4 (hidden W3 b3 (hidden W2 b2 (hidden W1 b1 h0))))

/-- A sum over 128 indices is the sum over the first 64 plus the sum over the last 64. -/
theorem sum_halves (f : Fin 128 → EReal) :
    ∑ j : Fin 128, f j = (∑ k : Fin 64, f ⟨k.val, by have := k.isLt; omega⟩) + ∑ k : Fin 64, f ⟨64 + k.val, by have := k.isLt; omega⟩ := by
  have e := Fin.sum_univ_add (a := 64) (b := 64) (M := EReal) f
  exact e

/-- The dense first layer on the joined row is the split first layer over the two halves of the weight. -/
theorem hidden_joined (W : (⟨2, ![128, 128]⟩ : Shape).Idx → EReal) (b : (⟨1, ![128]⟩ : Shape).Idx → EReal)
    (u v : Fin 64 → EReal) : hidden W b (joined u v) = firstSplit (upperRows W) (lowerRows W) b u v := by
  funext c
  unfold hidden firstSplit
  rw [sum_halves]
  refine congrArg (fun s => max (s + b (ix1 c)) 0) ?_
  refine congrArg₂ (· + ·) (Finset.sum_congr rfl fun k _ => ?_) (Finset.sum_congr rfl fun k _ => ?_)
  · have hk : k.val < 64 := k.isLt
    unfold joined upperRows
    rw [dif_pos hk]
  · have hk : ¬ (64 + k.val < 64) := by omega
    unfold joined lowerRows
    rw [dif_neg hk]
    refine congrArg₂ (· * ·) (congrArg v (Fin.ext ?_)) rfl
    show 64 + k.val - 64 = k.val
    omega

/-- Entry (p, q) of the result: the score of row p of x paired with row q of y, the first layer split. -/
def scores (x y : (⟨2, ![1024, 64]⟩ : Shape).Idx → EReal)
    (wx wy : (⟨2, ![64, 128]⟩ : Shape).Idx → EReal) (b0 : (⟨1, ![128]⟩ : Shape).Idx → EReal)
    (W1 : (⟨2, ![128, 128]⟩ : Shape).Idx → EReal) (b1 : (⟨1, ![128]⟩ : Shape).Idx → EReal)
    (W2 : (⟨2, ![128, 64]⟩ : Shape).Idx → EReal) (b2 : (⟨1, ![64]⟩ : Shape).Idx → EReal)
    (W3 : (⟨2, ![64, 64]⟩ : Shape).Idx → EReal) (b3 : (⟨1, ![64]⟩ : Shape).Idx → EReal)
    (W4 : (⟨2, ![64, 64]⟩ : Shape).Idx → EReal) (b4 : (⟨1, ![64]⟩ : Shape).Idx → EReal)
    (W5 : (⟨2, ![64, 1]⟩ : Shape).Idx → EReal) (b5 : (⟨1, ![1]⟩ : Shape).Idx → EReal) :
    (⟨2, ![1024, 1024]⟩ : Shape).Idx → EReal :=
  fun i => upperLayers W1 b1 W2 b2 W3 b3 W4 b4 W5 b5
    (firstSplit wx wy b0 (fun k => x (ix2 (⟨(i 0).val, idx2_lt0 i⟩ : Fin 1024) k)) (fun k => y (ix2 (⟨(i 1).val, idx2_lt1 i⟩ : Fin 1024) k)))

end Cert.Critic

end
-- ==== Proof.Layers.lean ====
/-
  Dense layers as the two programs write them, read at one entry.

  A vector unit writes a rectified dense layer on a block of rows as: the block product into a zero accumulator, plus
  the bias vector made a row and repeated down the block, then the maximum with a splat of zero. The host writes it
  as: the dot product, plus the bias vector made a row [1, K] and repeated down the rows, then the maximum with a
  rank-0 zero splat. Read at the entry (r, c) both are  max (∑ k, H (r, k) * W (k, c) + b c) 0  — the rectified dense
  layer applied to row r of H — at any extents and whatever float formats the factors carry (a change of format is
  the identity on extended reals).
-/
import Idealize.ShloMosaic.PureOps.Ideal.Laws
import Idealize.ShloMosaic.Lib.ValueIdx
import Idealize.ShloMosaic.Lib.Pipeline.Value
import proofs.«106550_j61692910240322_1_alg».proof.Proof.LibDense
import proofs.«106550_j61692910240322_1_alg».proof.Proof.Mlp

noncomputable section

namespace Cert.Critic

open Idealize.ShloMosaic Idealize.ShloMosaic.ValueIdx Cert.Lib.Dense

/-- Entry (r, c) of a block product into the zero accumulator: row r of the left factor against column c of the right. -/
theorem matmul_entry {R N K : Nat} {φ₁ φ₂ : FTy} (X : FVec Ideal ⟨2, ![R, N]⟩ φ₁) (W : FVec Ideal ⟨2, ![N, K]⟩ φ₂)
    (r : Fin R) (c : Fin K) :
    FloatOps.matmul (DotDims.plain R N K) none X W (constant ⟨2, ![R, K]⟩ .f32 0x00000000#32) (ix2 r c)
      = ∑ k : Fin N, X (ix2 r k) * W (ix2 k c) := by
  rw [Ideal.matmul_constant_zero_apply, ← Equiv.sum_comp (ce R N K).symm]
  exact Finset.sum_congr rfl fun k _ => by rw [plain_lhsIdx, plain_rhsIdx]; rfl

/-- Entry (r, c) of the host's dot product: the same sum. -/
theorem dot_entry {R N K : Nat} (X : FVec Ideal ⟨2, ![R, N]⟩ .f32) (W : FVec Ideal ⟨2, ![N, K]⟩ .f32)
    (r : Fin R) (c : Fin K) :
    Host.dotGeneral (DotDims.plain R N K) none X W (ix2 r c) = ∑ k : Fin N, X (ix2 r k) * W (ix2 k c) := by
  show FloatOps.dotGeneral (DotDims.plain R N K) none _ X W (ix2 r c) = _
  rw [plain_dot_apply]
  rfl

/-- A bias vector made a row and repeated down a block, at (r, c): the bias entry of column c. -/
theorem bias_entry {R K : Nat} (b : FVec Ideal ⟨1, ![K]⟩ .f32) (sc : (⟨1, ![K]⟩ : Shape).ShapeCasts ⟨2, ![1, K]⟩)
    (bt : (⟨2, ![1, K]⟩ : Shape).Broadcasts ⟨2, ![R, K]⟩) (r : Fin R) (c : Fin K) :
    broadcastTo ⟨2, ![R, K]⟩ (shapeCast ⟨2, ![1, K]⟩ b sc) bt (ix2 r c) = b (ix1 c) := by
  rw [broadcastTo_apply _ bt (ix2 r c) (ix2 (0 : Fin 1) c), shapeCast_addUnit_apply ![K] b sc (ix2 0 c)]
  · refine congrArg b (funext fun a => ?_)
    match a with
    | ⟨0, _⟩ => rfl
  · intro a
    match a with
    | ⟨0, _⟩ => simp
    | ⟨1, _⟩ =>
      show c.val = if K = 1 then 0 else c.val
      split_ifs with h
      · have := c.isLt; omega
      · rfl

/-- The host's bias, made a row [1, K] and then repeated down the rows, at (r, c): the bias entry of column c. -/
theorem host_bias_entry {R K : Nat} (b : FVec Ideal ⟨1, ![K]⟩ .f32)
    (e1 : (⟨1, ![K]⟩ : Shape).BroadcastsInDim ⟨2, ![1, K]⟩ (![1] : Fin 1 → Fin 2))
    (e2 : (⟨2, ![1, K]⟩ : Shape).BroadcastsInDim ⟨2, ![R, K]⟩ (![0, 1] : Fin 2 → Fin 2)) (r : Fin R) (c : Fin K) :
    broadcastInDim ⟨2, ![R, K]⟩ ![0, 1] e2 (broadcastInDim ⟨2, ![1, K]⟩ ![1] e1 b) (ix2 r c) = b (ix1 c) := by
  rw [broadcastInDim_apply _ e2 _ (ix2 r c) (ix2 (0 : Fin 1) c), broadcastInDim_apply _ e1 b (ix2 (0 : Fin 1) c) (ix1 c)]
  · intro a
    match a with
    | ⟨0, _⟩ =>
      show c.val = if K = 1 then 0 else c.val
      split_ifs with h
      · have := c.isLt; omega
      · rfl
  · intro a
    match a with
    | ⟨0, _⟩ => simp
    | ⟨1, _⟩ =>
      show c.val = if K = 1 then 0 else c.val
      split_ifs with h
      · have := c.isLt; omega
      · rfl

/-- A rectified dense layer as a vector unit writes it on a block of rows, at (r, c). -/
theorem vector_hidden {R N K : Nat} {φ₁ φ₂ : FTy} (H : FVec Ideal ⟨2, ![R, N]⟩ φ₁) (W : FVec Ideal ⟨2, ![N, K]⟩ φ₂)
    (b : FVec Ideal ⟨1, ![K]⟩ .f32) (sc : (⟨1, ![K]⟩ : Shape).ShapeCasts ⟨2, ![1, K]⟩)
    (bt : (⟨2, ![1, K]⟩ : Shape).Broadcasts ⟨2, ![R, K]⟩) (r : Fin R) (c : Fin K) :
    maximumf (addf (matmul (DotDims.plain R N K) none H W (constant ⟨2, ![R, K]⟩ .f32 0x00000000#32))
        (broadcastTo ⟨2, ![R, K]⟩ (shapeCast ⟨2, ![1, K]⟩ b sc) bt))
      (broadcast ⟨2, ![R, K]⟩ (Scalar.ofBits (F := Ideal) .f32 0x00000000#32)) (ix2 r c)
      = hidden W b (fun j => H (ix2 r j)) c := by
  show max (FloatOps.matmul (DotDims.plain R N K) none H W (constant ⟨2, ![R, K]⟩ .f32 0x00000000#32) (ix2 r c)
      + broadcastTo ⟨2, ![R, K]⟩ (shapeCast ⟨2, ![1, K]⟩ b sc) bt (ix2 r c)) (Ideal.ofBits .f32 0x00000000#32) = _
  rw [matmul_entry, bias_entry, Ideal.ofBits_zero_f32]
  rfl

/-- A rectified dense layer as the host writes it, at (r, c). -/
theorem host_hidden {R N K : Nat} (X : FVec Ideal ⟨2, ![R, N]⟩ .f32) (W : FVec Ideal ⟨2, ![N, K]⟩ .f32)
    (b : FVec Ideal ⟨1, ![K]⟩ .f32)
    (e1 : (⟨1, ![K]⟩ : Shape).BroadcastsInDim ⟨2, ![1, K]⟩ (![1] : Fin 1 → Fin 2))
    (e2 : (⟨2, ![1, K]⟩ : Shape).BroadcastsInDim ⟨2, ![R, K]⟩ (![0, 1] : Fin 2 → Fin 2))
    (e0 : (⟨0, ![]⟩ : Shape).BroadcastsInDim ⟨2, ![R, K]⟩ (![] : Fin 0 → Fin 2)) (r : Fin R) (c : Fin K) :
    maximumf (addf (Host.dotGeneral (DotDims.plain R N K) none X W)
        (broadcastInDim ⟨2, ![R, K]⟩ ![0, 1] e2 (broadcastInDim ⟨2, ![1, K]⟩ ![1] e1 b)))
      (broadcastInDim ⟨2, ![R, K]⟩ ![] e0 (constant (F := Ideal) ⟨0, ![]⟩ .f32 0x00000000#32)) (ix2 r c)
      = hidden W b (fun j => X (ix2 r j)) c := by
  show max (Host.dotGeneral (DotDims.plain R N K) none X W (ix2 r c)
      + broadcastInDim ⟨2, ![R, K]⟩ ![0, 1] e2 (broadcastInDim ⟨2, ![1, K]⟩ ![1] e1 b) (ix2 r c))
      (broadcastInDim ⟨2, ![R, K]⟩ ![] e0 (constant (F := Ideal) ⟨0, ![]⟩ .f32 0x00000000#32) (ix2 r c)) = _
  rw [dot_entry, host_bias_entry, splat0_apply]
  show max _ (Ideal.ofBits .f32 0x00000000#32) = _
  rw [Ideal.ofBits_zero_f32]
  rfl

/-- The host's last dense layer (no rectifier), at row r of its one column. -/
theorem host_score {R N : Nat} (X : FVec Ideal ⟨2, ![R, N]⟩ .f32) (W : FVec Ideal ⟨2, ![N, 1]⟩ .f32)
    (b : FVec Ideal ⟨1, ![1]⟩ .f32)
    (e1 : (⟨1, ![1]⟩ : Shape).BroadcastsInDim ⟨2, ![1, 1]⟩ (![1] : Fin 1 → Fin 2))
    (e2 : (⟨2, ![1, 1]⟩ : Shape).BroadcastsInDim ⟨2, ![R, 1]⟩ (![0, 1] : Fin 2 → Fin 2)) (r : Fin R) :
    addf (Host.dotGeneral (DotDims.plain R N 1) none X W)
        (broadcastInDim ⟨2, ![R, 1]⟩ ![0, 1] e2 (broadcastInDim ⟨2, ![1, 1]⟩ ![1] e1 b)) (ix2 r (0 : Fin 1))
      = score W b (fun j => X (ix2 r j)) := by
  show Host.dotGeneral (DotDims.plain R N 1) none X W (ix2 r (0 : Fin 1))
      + broadcastInDim ⟨2, ![R, 1]⟩ ![0, 1] e2 (broadcastInDim ⟨2, ![1, 1]⟩ ![1] e1 b) (ix2 r (0 : Fin 1)) = _
  rw [dot_entry, host_bias_entry]
  rfl

end Cert.Critic

end
-- ==== Proof.LibPairGrid.lean ====
/-
  A GRID OF ROW PAIRS AS A MATRIX, read at an entry. A tensor [A, B, C] indexed by a pair (a, b) and a lane c, and
  the matrix [A·B, C] with the pair flattened row-major to the row a·B + b, are one array: entry (r, c) of the matrix
  is entry (r / B, r % B, c) of the tensor, and entry (a, b, c) of the tensor is entry (a·B + b, c) of the matrix.

  * `merge_pairs`, `split_pairs`: the two shape casts at an entry;
  * `along_first`: a matrix [A, C] given a unit middle axis and repeated along it, at (a, b, c), is its entry (a, c);
  * `along_second`: a matrix [B, C] given a unit leading axis and repeated along it, at (a, b, c), is its entry (b, c);
  * `along_lanes`: a vector [C] given two unit leading axes and repeated along both, at (a, b, c), is its entry c.

  Every statement holds at any extents (an extent 1 included).
-/
import Idealize.ShloMosaic.Lib.ValueIdx
import Idealize.ShloMosaic.Lib.Pipeline.Value

noncomputable section

namespace Cert.Lib.PairGrid

open Idealize.ShloMosaic Idealize.ShloMosaic.ValueIdx

variable {α : Type}

/-- The matrix of flattened pairs read at (r, c) is the tensor at (r / B, r % B, c). -/
theorem merge_pairs {A B C R : Nat} (hR : R = A * B) (hB : 0 < B) (v : (⟨3, ![A, B, C]⟩ : Shape).Idx → α)
    (sc : (⟨3, ![A, B, C]⟩ : Shape).ShapeCasts ⟨2, ![R, C]⟩) (r : Fin R) (c : Fin C) :
    shapeCast ⟨2, ![R, C]⟩ v sc (ix2 r c)
      = v (ix3 (⟨r.val / B, Nat.div_lt_of_lt_mul (Nat.lt_of_lt_of_eq r.isLt (hR.trans (Nat.mul_comm A B)))⟩ : Fin A)
            (⟨r.val % B, Nat.mod_lt _ hB⟩ : Fin B) c) := by
  refine shapeCast_apply v sc (ix2 r c) _ ?_
  rw [Shape.rowMajor_val_three, Shape.rowMajor_val_two]
  show (r.val / B * B + r.val % B) * C + c.val = r.val * C + c.val
  rw [Nat.div_add_mod']

/-- The tensor of pairs read at (a, b, c) is the matrix at (a·B + b, c). -/
theorem split_pairs {A B C R : Nat} (hR : R = A * B) (v : (⟨2, ![R, C]⟩ : Shape).Idx → α)
    (sc : (⟨2, ![R, C]⟩ : Shape).ShapeCasts ⟨3, ![A, B, C]⟩) (a : Fin A) (b : Fin B) (c : Fin C) :
    shapeCast ⟨3, ![A, B, C]⟩ v sc (ix3 a b c)
      = v (ix2 (⟨a.val * B + b.val, by
            have ha := a.isLt; have hb := b.isLt; subst hR
            calc a.val * B + b.val < a.val * B + B := by omega
              _ = (a.val + 1) * B := by rw [Nat.add_mul, Nat.one_mul]
              _ ≤ A * B := Nat.mul_le_mul_right B ha⟩ : Fin R) c) := by
  refine shapeCast_apply v sc (ix3 a b c) _ ?_
  rw [Shape.rowMajor_val_three, Shape.rowMajor_val_two]
  rfl

/-- A matrix [A, C] repeated along a new middle axis. -/
theorem along_first {A B C : Nat} (v : (⟨2, ![A, C]⟩ : Shape).Idx → α)
    (sc : (⟨2, ![A, C]⟩ : Shape).ShapeCasts ⟨3, ![A, 1, C]⟩) (bt : (⟨3, ![A, 1, C]⟩ : Shape).Broadcasts ⟨3, ![A, B, C]⟩)
    (a : Fin A) (b : Fin B) (c : Fin C) :
    broadcastTo ⟨3, ![A, B, C]⟩ (shapeCast ⟨3, ![A, 1, C]⟩ v sc) bt (ix3 a b c) = v (ix2 a c) := by
  rw [broadcastTo_apply _ bt (ix3 a b c) (ix3 a (0 : Fin 1) c)]
  · refine shapeCast_apply v sc _ (ix2 a c) ?_
    rw [Shape.rowMajor_val_three, Shape.rowMajor_val_two]
    show a.val * C + c.val = (a.val * 1 + 0) * C + c.val
    rw [Nat.mul_one, Nat.add_zero]
  · intro d
    match d with
    | ⟨0, _⟩ =>
      show a.val = if A = 1 then 0 else a.val
      split_ifs with h
      · have := a.isLt; omega
      · rfl
    | ⟨1, _⟩ => simp
    | ⟨2, _⟩ =>
      show c.val = if C = 1 then 0 else c.val
      split_ifs with h
      · have := c.isLt; omega
      · rfl

/-- A matrix [B, C] repeated along a new leading axis. -/
theorem along_second {A B C : Nat} (v : (⟨2, ![B, C]⟩ : Shape).Idx → α)
    (sc : (⟨2, ![B, C]⟩ : Shape).ShapeCasts ⟨3, ![1, B, C]⟩) (bt : (⟨3, ![1, B, C]⟩ : Shape).Broadcasts ⟨3, ![A, B, C]⟩)
    (a : Fin A) (b : Fin B) (c : Fin C) :
    broadcastTo ⟨3, ![A, B, C]⟩ (shapeCast ⟨3, ![1, B, C]⟩ v sc) bt (ix3 a b c) = v (ix2 b c) := by
  rw [broadcastTo_apply _ bt (ix3 a b c) (ix3 (0 : Fin 1) b c)]
  · refine shapeCast_apply v sc _ (ix2 b c) ?_
    rw [Shape.rowMajor_val_three, Shape.rowMajor_val_two]
    show b.val * C + c.val = (0 * B + b.val) * C + c.val
    rw [Nat.zero_mul, Nat.zero_add]
  · intro d
    match d with
    | ⟨0, _⟩ => simp
    | ⟨1, _⟩ =>
      show b.val = if B = 1 then 0 else b.val
      split_ifs with h
      · have := b.isLt; omega
      · rfl
    | ⟨2, _⟩ =>
      show c.val = if C = 1 then 0 else c.val
      split_ifs with h
      · have := c.isLt; omega
      · rfl

/-- A vector [C] repeated along two new leading axes. -/
theorem along_lanes {A B C : Nat} (v : (⟨1, ![C]⟩ : Shape).Idx → α)
    (sc : (⟨1, ![C]⟩ : Shape).ShapeCasts ⟨3, ![1, 1, C]⟩) (bt : (⟨3, ![1, 1, C]⟩ : Shape).Broadcasts ⟨3, ![A, B, C]⟩)
    (a : Fin A) (b : Fin B) (c : Fin C) :
    broadcastTo ⟨3, ![A, B, C]⟩ (shapeCast ⟨3, ![1, 1, C]⟩ v sc) bt (ix3 a b c) = v (ix1 c) := by
  rw [broadcastTo_apply _ bt (ix3 a b c) (ix3 (0 : Fin 1) (0 : Fin 1) c)]
  · refine shapeCast_apply v sc _ (ix1 c) ?_
    rw [Shape.rowMajor_val_three, Shape.rowMajor_val_one]
    show c.val = (0 * 1 + 0) * C + c.val
    omega
  · intro d
    match d with
    | ⟨0, _⟩ => simp
    | ⟨1, _⟩ => simp
    | ⟨2, _⟩ =>
      show c.val = if C = 1 then 0 else c.val
      split_ifs with h
      · have := c.isLt; omega
      · rfl

end Cert.Lib.PairGrid

end
-- ==== Proof.KernelBody.lean ====
/-
  What the kernel body stores, entry by entry. On a grid point the body holds a block of 128 rows of x, a block of
  128 rows of y, the two halves of the first weight and the remaining weights and biases. It forms the first
  layer on every pair (row a of the x block, row b of the y block) as a 128 × 128 × 128 tensor, flattens the pair
  to the row a·128 + b of a 16384-row matrix, runs four rectified dense layers on that matrix, splits the rows
  back into pairs and takes the last layer as a product with the single weight column summed over the lanes.
  So entry (a, b) of the stored block is the perceptron's score of the pair of rows: every layer acts on one row
  of the matrix at a time, and row a·128 + b is the pair (a, b).
-/
import proofs.«106550_j61692910240322_1_alg».proof.Proof.Gen.KernelIdeal.Skeleton
import proofs.«106550_j61692910240322_1_alg».proof.Proof.Layers
import proofs.«106550_j61692910240322_1_alg».proof.Proof.LibPairGrid

noncomputable section

namespace Cert.Critic.Body

open Idealize.ShloMosaic Idealize.ShloMosaic.ValueIdx Cert.KernelIdeal Cert.KernelIdeal.Gen Cert.Critic Cert.Lib.PairGrid

/-- Row r of the matrix the body builds first: the rectified second layer of the first layer on the pair (r / 128, r % 128). -/
theorem pay1_entry (x0 x1 : Vec Ideal S128x64 .f32) (x2 x3 : Vec Ideal S64x128 .f32) (x4 : Vec Ideal S128 .f32)
    (x5 : Vec Ideal S128x128 .f32) (x6 : Vec Ideal S128 .f32) (r : Fin 16384) (c : Fin 128) :
    k0_pay1 (F := Ideal) x0 x1 x2 x3 x4 x5 x6 (ix2 r c)
      = hidden x5 x6 (firstSplit x2 x3 x4
          (fun k => x0 (ix2 (⟨r.val / 128, by have := r.isLt; omega⟩ : Fin 128) k))
          (fun k => x1 (ix2 (⟨r.val % 128, by omega⟩ : Fin 128) k))) c := by
  unfold k0_pay1
  rw [truncf_apply]
  refine (vector_hidden (R := 16384) (N := 128) (K := 128) _ _ x6 _ _ r c).trans ?_
  refine congrFun (congrArg (hidden (n := 128) (k := 128) x5 x6) (funext fun j => ?_)) c
  refine (merge_pairs (A := 128) (B := 128) (C := 128) (R := 16384) rfl (by decide) _ _ r j).trans ?_
  rw [truncf_apply]
  show max (((broadcastTo S128x128x128 (shapeCast S128x1x128 _ _) _ (ix3 _ _ j)) + (broadcastTo S128x128x128 (shapeCast S1x128x128 _ _) _ (ix3 _ _ j)))
      + (broadcastTo S128x128x128 (shapeCast S1x1x128 x4 _) _ (ix3 _ _ j))) (Ideal.ofBits .f32 0x00000000#32) = _
  rw [along_first, along_second, along_lanes, Ideal.ofBits_zero_f32, shapeCast_self, shapeCast_self]
  unfold firstSplit
  refine congrArg (fun s => max (s + x4 (ix1 j)) 0) (congrArg₂ (· + ·) ?_ ?_)
  · exact matmul_entry (R := 128) (N := 64) (K := 128) _ _ _ j
  · exact matmul_entry (R := 128) (N := 64) (K := 128) _ _ _ j

/-- Entry (a, b) of the stored block: the last layer on row a·128 + b of the matrix, after three more rectified dense layers. -/
theorem pay3_entry (v34 : FVec Ideal S16384x128 .bf16) (v36 : FVec Ideal S128x64 .bf16) (v37 : Vec Ideal S64 .f32)
    (v45 : Vec Ideal S64x64 .f32) (v47 : Vec Ideal S64 .f32) (v55 : Vec Ideal S64x64 .f32) (v57 : Vec Ideal S64 .f32)
    (v67 : Vec Ideal S64x1 .f32) (v69 : Vec Ideal S1 .f32) (a b : Fin 128) :
    k0_pay3 (F := Ideal) v34 v36 v37 v45 v47 v55 v57 v67 v69 (ix2 a b)
      = score v67 v69 (hidden v55 v57 (hidden v45 v47 (hidden v36 v37
          (fun k => v34 (ix2 (⟨a.val * 128 + b.val, by have := a.isLt; have := b.isLt; omega⟩ : Fin 16384) k))))) := by
  unfold k0_pay3
  rw [addf_apply]
  unfold score
  refine congrArg₂ (· + ·) ((Ideal.multiReduction_add_single _ 0x00000000#32 reduces_S128x128x64_S128x128 (.inl rfl) rfl (ix2 a b)).trans ?_) ?_
  · refine Finset.sum_congr rfl fun k _ => ?_
    have hl : reduces_S128x128x64_S128x128.lift (ix2 a b) k = ix3 a b (⟨k.val, k.isLt⟩ : Fin 64) :=
      funext fun d => Fin.ext (by
        match d with
        | ⟨0, _⟩ => rfl
        | ⟨1, _⟩ => rfl
        | ⟨2, _⟩ => rfl)
    rw [hl, mulf_apply, along_lanes, split_pairs (A := 128) (B := 128) (C := 64) (R := 16384) rfl]
    refine congrArg₂ (· * ·) ?_ ?_
    · refine (vector_hidden (R := 16384) (N := 64) (K := 64) _ _ v57 _ _ _ k).trans ?_
      refine congrFun (congrArg (hidden (n := 64) (k := 64) v55 v57) (funext fun j => ?_)) k
      rw [truncf_apply]
      refine (vector_hidden (R := 16384) (N := 64) (K := 64) _ _ v47 _ _ _ j).trans ?_
      refine congrFun (congrArg (hidden (n := 64) (k := 64) v45 v47) (funext fun i => ?_)) j
      rw [truncf_apply]
      exact vector_hidden (R := 16384) (N := 128) (K := 64) _ _ v37 _ _ _ i
    · refine shapeCast_apply v67 _ (ix1 k) (ix2 k (0 : Fin 1)) ?_
      rw [Shape.rowMajor_val_two, Shape.rowMajor_val_one]
      show k.val * 1 + 0 = k.val
      omega
  · show v69 _ = v69 _
    refine congrArg v69 (funext fun d => ?_)
    match d with
    | ⟨0, _⟩ => rfl

/-- Entry (a, b) of the block a grid point stores: the score of row a of its x block paired with row b of its y block. -/
theorem pay_entry (x0 x1 : Vec Ideal S128x64 .f32) (x2 x3 : Vec Ideal S64x128 .f32) (x4 : Vec Ideal S128 .f32)
    (x5 : Vec Ideal S128x128 .f32) (x6 : Vec Ideal S128 .f32) (x7 : Vec Ideal S128x64 .f32) (x8 : Vec Ideal S64 .f32)
    (x9 : Vec Ideal S64x64 .f32) (x10 : Vec Ideal S64 .f32) (x11 : Vec Ideal S64x64 .f32) (x12 : Vec Ideal S64 .f32)
    (x13 : Vec Ideal S64x1 .f32) (x14 : Vec Ideal S1 .f32) (a b : Fin 128) :
    k0_pay3 (F := Ideal) (k0_pay1 x0 x1 x2 x3 x4 x5 x6) (k0_pay2 x7) x8 x9 x10 x11 x12 x13 x14 (ix2 a b)
      = upperLayers x5 x6 x7 x8 x9 x10 x11 x12 x13 x14
          (firstSplit x2 x3 x4 (fun k => x0 (ix2 a k)) (fun k => x1 (ix2 b k))) := by
  rw [pay3_entry]
  unfold upperLayers
  have ha : a.val < 128 := a.isLt
  have hb : b.val < 128 := b.isLt
  have hrow : (fun k => k0_pay1 (F := Ideal) x0 x1 x2 x3 x4 x5 x6 (ix2 (⟨a.val * 128 + b.val, by omega⟩ : Fin 16384) k))
      = hidden x5 x6 (firstSplit x2 x3 x4 (fun k => x0 (ix2 a k)) (fun k => x1 (ix2 b k))) := by
    funext k
    rw [pay1_entry]
    refine congrFun (congrArg (hidden x5 x6) (congrArg₂ (firstSplit x2 x3 x4)
      (funext fun j => congrArg x0 (congrArg (fun t => ix2 t j) (Fin.ext ?_)))
      (funext fun j => congrArg x1 (congrArg (fun t => ix2 t j) (Fin.ext ?_))))) k
    · show (a.val * 128 + b.val) / 128 = a.val
      omega
    · show (a.val * 128 + b.val) % 128 = b.val
      omega
  exact congrArg (fun h => score x13 x14 (hidden x11 x12 (hidden x9 x10 (hidden x7 x8 h)))) hrow

/-- The same at any index of the block, against whole arrays: if the x block's row is row (i 0) of x, the y block's
    row is row (i 1) of y, and the other blocks are the whole weight and bias arrays, the stored entry is entry i of
    the scores of all pairs. -/
theorem block_entry (X Y : (⟨2, ![1024, 64]⟩ : Shape).Idx → EReal)
    (x0 x1 : Vec Ideal S128x64 .f32) (x2 x3 : Vec Ideal S64x128 .f32) (x4 : Vec Ideal S128 .f32)
    (x5 : Vec Ideal S128x128 .f32) (x6 : Vec Ideal S128 .f32) (x7 : Vec Ideal S128x64 .f32) (x8 : Vec Ideal S64 .f32)
    (x9 : Vec Ideal S64x64 .f32) (x10 : Vec Ideal S64 .f32) (x11 : Vec Ideal S64x64 .f32) (x12 : Vec Ideal S64 .f32)
    (x13 : Vec Ideal S64x1 .f32) (x14 : Vec Ideal S1 .f32) (y : S128x128.Idx) (i : S1024x1024.Idx)
    (hx : ∀ k : Fin 64, x0 (ix2 (⟨(y 0).val, idx2_lt0 y⟩ : Fin 128) k) = X (ix2 (⟨(i 0).val, idx2_lt0 i⟩ : Fin 1024) k))
    (hy : ∀ k : Fin 64, x1 (ix2 (⟨(y 1).val, idx2_lt1 y⟩ : Fin 128) k) = Y (ix2 (⟨(i 1).val, idx2_lt1 i⟩ : Fin 1024) k)) :
    k0_pay3 (F := Ideal) (k0_pay1 x0 x1 x2 x3 x4 x5 x6) (k0_pay2 x7) x8 x9 x10 x11 x12 x13 x14 y
      = scores X Y x2 x3 x4 x5 x6 x7 x8 x9 x10 x11 x12 x13 x14 i := by
  have e : y = ix2 (⟨(y 0).val, idx2_lt0 y⟩ : Fin 128) (⟨(y 1).val, idx2_lt1 y⟩ : Fin 128) := eq_ix2 y
  rw [e, pay_entry]
  unfold scores
  exact congrArg (upperLayers x5 x6 x7 x8 x9 x10 x11 x12 x13 x14)
    (congrArg₂ (firstSplit x2 x3 x4) (funext hx) (funext hy))

end Cert.Critic.Body

end
-- ==== Proof.KernelValue.lean ====
/-
  From blocks to the array. The grid is 8 × 8; point (s, u) holds rows 128 s … 128 s + 127 of x, rows
  128 u … 128 u + 127 of y and every weight and bias whole, and writes back block (s, u) of the 1024 × 1024
  result. Entry (a, b) of what it writes is the score of row 128 s + a of x paired with row 128 u + b of y, which is
  entry (128 s + a, 128 u + b) of the scores of all pairs: so every point writes its block of ONE function of the
  arrays, the 64 blocks tile the result, and the result array ends holding that function. The two halves of the
  first weight reach the region as two slices the host cuts before it: rows 0 … 63 and rows 64 … 127.
-/
import proofs.«106550_j61692910240322_1_alg».proof.Proof.Gen.KernelIdeal.Value
import proofs.«106550_j61692910240322_1_alg».proof.Proof.KernelBody
import Idealize.ShloMosaic.Lib.StableHlo.Run

noncomputable section

namespace Cert.Critic.Kernel

open Cert.KernelIdeal Cert.KernelIdeal.Gen Idealize.ShloMosaic Idealize.ShloMosaic.TcCoe Idealize.SL.Sem
open Idealize.ShloMosaic.ValueIdx Cert.Critic
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a <;> rfl

/-- The scores of all pairs, over the arrays as the region finds them. -/
def result (c : Dev nD) : S1024x1024.Idx → EReal :=
  scores (V m c main_arg0) (V m c main_arg1) (V m c main_v0) (V m c main_v1) (V m c main_arg3) (V m c main_arg4)
    (V m c main_arg5) (V m c main_arg6) (V m c main_arg7) (V m c main_arg8) (V m c main_arg9) (V m c main_arg10)
    (V m c main_arg11) (V m c main_arg12) (V m c main_arg13)

/-- The index maps over the grid: the x window moves with the result's row block, the y window with its column
    block, every other input window stays at block 0, and the result's block indices run over 0 … 7. -/
theorem moving : ∀ t : Fin cfg0.N,
    win0_0.index t (0 : Fin 2) = win0_15.index t (0 : Fin 2) ∧ win0_0.index t (1 : Fin 2) = 0
    ∧ win0_1.index t (0 : Fin 2) = win0_15.index t (1 : Fin 2) ∧ win0_1.index t (1 : Fin 2) = 0
    ∧ win0_15.index t (0 : Fin 2) ≤ 7 ∧ win0_15.index t (1 : Fin 2) ≤ 7 :=
  (by decide +kernel : ∀ t : Fin grid0.N, _)

theorem resting2 : ∀ t : Fin cfg0.N,
    (win0_2.index t (0 : Fin 2) = 0 ∧ win0_2.index t (1 : Fin 2) = 0)
    ∧ (win0_3.index t (0 : Fin 2) = 0 ∧ win0_3.index t (1 : Fin 2) = 0)
    ∧ (win0_5.index t (0 : Fin 2) = 0 ∧ win0_5.index t (1 : Fin 2) = 0)
    ∧ (win0_7.index t (0 : Fin 2) = 0 ∧ win0_7.index t (1 : Fin 2) = 0)
    ∧ (win0_9.index t (0 : Fin 2) = 0 ∧ win0_9.index t (1 : Fin 2) = 0)
    ∧ (win0_11.index t (0 : Fin 2) = 0 ∧ win0_11.index t (1 : Fin 2) = 0)
    ∧ (win0_13.index t (0 : Fin 2) = 0 ∧ win0_13.index t (1 : Fin 2) = 0) :=
  (by decide +kernel : ∀ t : Fin grid0.N, _)

theorem resting1 : ∀ t : Fin cfg0.N,
    win0_4.index t (0 : Fin 1) = 0 ∧ win0_6.index t (0 : Fin 1) = 0 ∧ win0_8.index t (0 : Fin 1) = 0
    ∧ win0_10.index t (0 : Fin 1) = 0 ∧ win0_12.index t (0 : Fin 1) = 0 ∧ win0_14.index t (0 : Fin 1) = 0 :=
  (by decide +kernel : ∀ t : Fin grid0.N, _)

/-- Every block of the result is some point's. -/
theorem onto : ∀ (q0 q1 : Fin 8), ∃ t : Fin cfg0.N, win0_15.index t = ![q0.val, q1.val] :=
  (by decide +kernel : ∀ (q0 q1 : Fin 8), ∃ t : Fin grid0.N, win0_15.index t = ![q0.val, q1.val])

/-! The windows that stay at block 0 hold their whole arrays. -/

theorem whole2 (c : Dev nD) (t : Fin cfg0.N) (y : S64x128.Idx) : iblk m c 2 t y = V m c main_v0 y := by
  show V m c main_v0 (((cfg0.win 2).blk t).view.emb y) = V m c main_v0 y
  obtain ⟨⟨e0, e1⟩, -⟩ := resting2 t
  refine congrArg (V m c main_v0) (funext fun a => Fin.ext ?_)
  match a with
  | ⟨0, _⟩ => show win0_2.index t (0 : Fin 2) * 64 + 1 * (y 0).val = (y 0).val; omega
  | ⟨1, _⟩ => show win0_2.index t (1 : Fin 2) * 128 + 1 * (y 1).val = (y 1).val; omega

theorem whole3 (c : Dev nD) (t : Fin cfg0.N) (y : S64x128.Idx) : iblk m c 3 t y = V m c main_v1 y := by
  show V m c main_v1 (((cfg0.win 3).blk t).view.emb y) = V m c main_v1 y
  obtain ⟨-, ⟨e0, e1⟩, -⟩ := resting2 t
  refine congrArg (V m c main_v1) (funext fun a => Fin.ext ?_)
  match a with
  | ⟨0, _⟩ => show win0_3.index t (0 : Fin 2) * 64 + 1 * (y 0).val = (y 0).val; omega
  | ⟨1, _⟩ => show win0_3.index t (1 : Fin 2) * 128 + 1 * (y 1).val = (y 1).val; omega

theorem whole4 (c : Dev nD) (t : Fin cfg0.N) (y : S128.Idx) : iblk m c 4 t y = V m c main_arg3 y := by
  show V m c main_arg3 (((cfg0.win 4).blk t).view.emb y) = V m c main_arg3 y
  obtain ⟨e, -⟩ := resting1 t
  refine congrArg (V m c main_arg3) (funext fun a => Fin.ext ?_)
  match a with
  | ⟨0, _⟩ => show win0_4.index t (0 : Fin 1) * 128 + 1 * (y 0).val = (y 0).val; omega

theorem whole5 (c : Dev nD) (t : Fin cfg0.N) (y : S128x128.Idx) : iblk m c 5 t y = V m c main_arg4 y := by
  show V m c main_arg4 (((cfg0.win 5).blk t).view.emb y) = V m c main_arg4 y
  obtain ⟨-, -, ⟨e0, e1⟩, -⟩ := resting2 t
  refine congrArg (V m c main_arg4) (funext fun a => Fin.ext ?_)
  match a with
  | ⟨0, _⟩ => show win0_5.index t (0 : Fin 2) * 128 + 1 * (y 0).val = (y 0).val; omega
  | ⟨1, _⟩ => show win0_5.index t (1 : Fin 2) * 128 + 1 * (y 1).val = (y 1).val; omega

theorem whole6 (c : Dev nD) (t : Fin cfg0.N) (y : S128.Idx) : iblk m c 6 t y = V m c main_arg5 y := by
  show V m c main_arg5 (((cfg0.win 6).blk t).view.emb y) = V m c main_arg5 y
  obtain ⟨-, e, -⟩ := resting1 t
  refine congrArg (V m c main_arg5) (funext fun a => Fin.ext ?_)
  match a with
  | ⟨0, _⟩ => show win0_6.index t (0 : Fin 1) * 128 + 1 * (y 0).val = (y 0).val; omega

theorem whole7 (c : Dev nD) (t : Fin cfg0.N) (y : S128x64.Idx) : iblk m c 7 t y = V m c main_arg6 y := by
  show V m c main_arg6 (((cfg0.win 7).blk t).view.emb y) = V m c main_arg6 y
  obtain ⟨-, -, -, ⟨e0, e1⟩, -⟩ := resting2 t
  refine congrArg (V m c main_arg6) (funext fun a => Fin.ext ?_)
  match a with
  | ⟨0, _⟩ => show win0_7.index t (0 : Fin 2) * 128 + 1 * (y 0).val = (y 0).val; omega
  | ⟨1, _⟩ => show win0_7.index t (1 : Fin 2) * 64 + 1 * (y 1).val = (y 1).val; omega

theorem whole8 (c : Dev nD) (t : Fin cfg0.N) (y : S64.Idx) : iblk m c 8 t y = V m c main_arg7 y := by
  show V m c main_arg7 (((cfg0.win 8).blk t).view.emb y) = V m c main_arg7 y
  obtain ⟨-, -, e, -⟩ := resting1 t
  refine congrArg (V m c main_arg7) (funext fun a => Fin.ext ?_)
  match a with
  | ⟨0, _⟩ => show win0_8.index t (0 : Fin 1) * 64 + 1 * (y 0).val = (y 0).val; omega

theorem whole9 (c : Dev nD) (t : Fin cfg0.N) (y : S64x64.Idx) : iblk m c 9 t y = V m c main_arg8 y := by
  show V m c main_arg8 (((cfg0.win 9).blk t).view.emb y) = V m c main_arg8 y
  obtain ⟨-, -, -, -, ⟨e0, e1⟩, -⟩ := resting2 t
  refine congrArg (V m c main_arg8) (funext fun a => Fin.ext ?_)
  match a with
  | ⟨0, _⟩ => show win0_9.index t (0 : Fin 2) * 64 + 1 * (y 0).val = (y 0).val; omega
  | ⟨1, _⟩ => show win0_9.index t (1 : Fin 2) * 64 + 1 * (y 1).val = (y 1).val; omega

theorem whole10 (c : Dev nD) (t : Fin cfg0.N) (y : S64.Idx) : iblk m c 10 t y = V m c main_arg9 y := by
  show V m c main_arg9 (((cfg0.win 10).blk t).view.emb y) = V m c main_arg9 y
  obtain ⟨-, -, -, e, -⟩ := resting1 t
  refine congrArg (V m c main_arg9) (funext fun a => Fin.ext ?_)
  match a with
  | ⟨0, _⟩ => show win0_10.index t (0 : Fin 1) * 64 + 1 * (y 0).val = (y 0).val; omega

theorem whole11 (c : Dev nD) (t : Fin cfg0.N) (y : S64x64.Idx) : iblk m c 11 t y = V m c main_arg10 y := by
  show V m c main_arg10 (((cfg0.win 11).blk t).view.emb y) = V m c main_arg10 y
  obtain ⟨-, -, -, -, -, ⟨e0, e1⟩, -⟩ := resting2 t
  refine congrArg (V m c main_arg10) (funext fun a => Fin.ext ?_)
  match a with
  | ⟨0, _⟩ => show win0_11.index t (0 : Fin 2) * 64 + 1 * (y 0).val = (y 0).val; omega
  | ⟨1, _⟩ => show win0_11.index t (1 : Fin 2) * 64 + 1 * (y 1).val = (y 1).val; omega

theorem whole12 (c : Dev nD) (t : Fin cfg0.N) (y : S64.Idx) : iblk m c 12 t y = V m c main_arg11 y := by
  show V m c main_arg11 (((cfg0.win 12).blk t).view.emb y) = V m c main_arg11 y
  obtain ⟨-, -, -, -, e, -⟩ := resting1 t
  refine congrArg (V m c main_arg11) (funext fun a => Fin.ext ?_)
  match a with
  | ⟨0, _⟩ => show win0_12.index t (0 : Fin 1) * 64 + 1 * (y 0).val = (y 0).val; omega

theorem whole13 (c : Dev nD) (t : Fin cfg0.N) (y : S64x1.Idx) : iblk m c 13 t y = V m c main_arg12 y := by
  show V m c main_arg12 (((cfg0.win 13).blk t).view.emb y) = V m c main_arg12 y
  obtain ⟨-, -, -, -, -, -, e0, e1⟩ := resting2 t
  refine congrArg (V m c main_arg12) (funext fun a => Fin.ext ?_)
  match a with
  | ⟨0, _⟩ => show win0_13.index t (0 : Fin 2) * 64 + 1 * (y 0).val = (y 0).val; omega
  | ⟨1, _⟩ => show win0_13.index t (1 : Fin 2) * 1 + 1 * (y 1).val = (y 1).val; omega

theorem whole14 (c : Dev nD) (t : Fin cfg0.N) (y : S1.Idx) : iblk m c 14 t y = V m c main_arg13 y := by
  show V m c main_arg13 (((cfg0.win 14).blk t).view.emb y) = V m c main_arg13 y
  obtain ⟨-, -, -, -, -, e⟩ := resting1 t
  refine congrArg (V m c main_arg13) (funext fun a => Fin.ext ?_)
  match a with
  | ⟨0, _⟩ => show win0_14.index t (0 : Fin 1) * 1 + 1 * (y 0).val = (y 0).val; omega

/-- What point t writes back is block t of the scores of all pairs. -/
theorem flushed_eq (c : Dev nD) (t : Fin cfg0.N) :
    (dats m 0 c).flushed 15 t = ((cfg0.win 15).blk t).view.read (Elt Ideal) (result m c) := by
  rw [Cert.KernelIdeal.Value.flushed15]
  unfold out0_15
  rw [View.canon_unit_zero zero2]
  simp only [View.ld_unit_zero (S := S128x64) zero2, View.ld_unit_zero (S := S64x128) zero2, View.ld_unit_zero (S := S128) zero1,
    View.ld_unit_zero (S := S128x128) zero2, View.ld_unit_zero (S := S64) zero1, View.ld_unit_zero (S := S64x64) zero2,
    View.ld_unit_zero (S := S64x1) zero2, View.ld_unit_zero (S := S1) zero1]
  obtain ⟨e0, e1, e2, e3, e4, e5⟩ := moving t
  funext j
  show Cert.KernelIdeal.Gen.k0_pay3 (F := Ideal) (k0_pay1 (iblk m c 0 t) (iblk m c 1 t) (iblk m c 2 t) (iblk m c 3 t) (iblk m c 4 t) (iblk m c 5 t) (iblk m c 6 t))
      (k0_pay2 (iblk m c 7 t)) (iblk m c 8 t) (iblk m c 9 t) (iblk m c 10 t) (iblk m c 11 t) (iblk m c 12 t) (iblk m c 13 t) (iblk m c 14 t) j
    = result m c (((cfg0.win 15).blk t).view.emb j)
  rw [show (iblk m c 2 t : S64x128.Idx → EReal) = V m c main_v0 from funext (whole2 m c t),
    show (iblk m c 3 t : S64x128.Idx → EReal) = V m c main_v1 from funext (whole3 m c t),
    show (iblk m c 4 t : S128.Idx → EReal) = V m c main_arg3 from funext (whole4 m c t),
    show (iblk m c 5 t : S128x128.Idx → EReal) = V m c main_arg4 from funext (whole5 m c t),
    show (iblk m c 6 t : S128.Idx → EReal) = V m c main_arg5 from funext (whole6 m c t),
    show (iblk m c 7 t : S128x64.Idx → EReal) = V m c main_arg6 from funext (whole7 m c t),
    show (iblk m c 8 t : S64.Idx → EReal) = V m c main_arg7 from funext (whole8 m c t),
    show (iblk m c 9 t : S64x64.Idx → EReal) = V m c main_arg8 from funext (whole9 m c t),
    show (iblk m c 10 t : S64.Idx → EReal) = V m c main_arg9 from funext (whole10 m c t),
    show (iblk m c 11 t : S64x64.Idx → EReal) = V m c main_arg10 from funext (whole11 m c t),
    show (iblk m c 12 t : S64.Idx → EReal) = V m c main_arg11 from funext (whole12 m c t),
    show (iblk m c 13 t : S64x1.Idx → EReal) = V m c main_arg12 from funext (whole13 m c t),
    show (iblk m c 14 t : S1.Idx → EReal) = V m c main_arg13 from funext (whole14 m c t)]
  refine Body.block_entry (V m c main_arg0) (V m c main_arg1) (iblk m c 0 t) (iblk m c 1 t) _ _ _ _ _ _ _ _ _ _ _ _ _ j _ ?_ ?_
  · intro k
    show V m c main_arg0 (((cfg0.win 0).blk t).view.emb (ix2 (⟨(j 0).val, _⟩ : Fin 128) k)) = V m c main_arg0 _
    refine congrArg (V m c main_arg0) (funext fun a => Fin.ext ?_)
    match a with
    | ⟨0, _⟩ => show win0_0.index t (0 : Fin 2) * 128 + 1 * (j 0).val = win0_15.index t (0 : Fin 2) * 128 + 1 * (j 0).val; omega
    | ⟨1, _⟩ => show win0_0.index t (1 : Fin 2) * 64 + 1 * k.val = k.val; omega
  · intro k
    show V m c main_arg1 (((cfg0.win 1).blk t).view.emb (ix2 (⟨(j 1).val, _⟩ : Fin 128) k)) = V m c main_arg1 _
    refine congrArg (V m c main_arg1) (funext fun a => Fin.ext ?_)
    match a with
    | ⟨0, _⟩ => show win0_1.index t (0 : Fin 2) * 128 + 1 * (j 1).val = win0_15.index t (1 : Fin 2) * 128 + 1 * (j 1).val; omega
    | ⟨1, _⟩ => show win0_1.index t (1 : Fin 2) * 64 + 1 * k.val = k.val; omega

/-- An index of the result is in point t's block iff each coordinate is in the block's range on its axis. -/
theorem mem_blk (t : Fin cfg0.N) (i : S1024x1024.Idx) :
    i ∈ ((cfg0.win 15).blk t).view.set ↔ ∀ a : Fin 2, win0_15.index t a * S128x128.size a ≤ (i a).val ∧ (i a).val < win0_15.index t a * S128x128.size a + S128x128.size a := by
  show i ∈ ((View.whole main_v2).slice (win0_15.rect t)).set ↔ _
  rw [View.set_slice_whole, Rect.mem_set_unit]
  exact Iff.rfl

/-- The 64 blocks tile the result: the block of entry (p, q) is (p / 128, q / 128). -/
theorem cover (i : S1024x1024.Idx) : ∃ t : Fin cfg0.N, (cfg0.win 15).flush t = true ∧ i ∈ ((cfg0.win 15).blk t).view.set := by
  have hi0 : (i 0).val < 1024 := (i 0).isLt
  have hi1 : (i 1).val < 1024 := (i 1).isLt
  obtain ⟨t, ht⟩ := onto ⟨(i 0).val / 128, by omega⟩ ⟨(i 1).val / 128, by omega⟩
  have q0 : win0_15.index t (0 : Fin 2) = (i 0).val / 128 := congrFun ht 0
  have q1 : win0_15.index t (1 : Fin 2) = (i 1).val / 128 := congrFun ht 1
  refine ⟨t, flush0_15 t, ?_⟩
  rw [mem_blk]
  intro a
  match a with
  | ⟨0, _⟩ => show win0_15.index t (0 : Fin 2) * 128 ≤ (i 0).val ∧ (i 0).val < win0_15.index t (0 : Fin 2) * 128 + 128; omega
  | ⟨1, _⟩ => show win0_15.index t (1 : Fin 2) * 128 ≤ (i 1).val ∧ (i 1).val < win0_15.index t (1 : Fin 2) * 128 + 128; omega

/-- The result array after the run is the scores of all pairs. -/
theorem final (c : Dev nD) : (dats m 0 c).arrAt 15 cfg0.N = result m c :=
  (dats m 0 c).arrAt_eq_of_cover 15 (result m c) (fun t _ => flushed_eq m c t) cover

/-! The arrays the region finds, in terms of the arguments: the two slices the host cuts from the first weight are
    its upper and lower 64 rows; every other array is an argument as launched. -/

theorem upper_half (c : Dev nD) :
    (V m c main_v0 : S64x128.Idx → EReal) = upperRows (m ((c : Thread nD τ).loc main_arg2)) := by
  have e : (V m c main_v0 : S64x128.Idx → EReal)
      = extractStridedSlice S64x128 ![0, 0] (m ((c : Thread nD τ).loc main_arg2) : S128x128.Idx → EReal) slices_S128x128_S64x128_0_0 := by
    dsimp only [Gen.V, Gen.hostOps0]; after_results
  rw [e]
  funext i
  unfold upperRows
  refine extractStridedSlice_apply _ _ _ i _ (fun a => ?_)
  match a with
  | ⟨0, _⟩ => show (i 0).val = 0 + (i 0).val; omega
  | ⟨1, _⟩ => show (i 1).val = 0 + (i 1).val; omega

theorem lower_half (c : Dev nD) :
    (V m c main_v1 : S64x128.Idx → EReal) = lowerRows (m ((c : Thread nD τ).loc main_arg2)) := by
  have e : (V m c main_v1 : S64x128.Idx → EReal)
      = extractStridedSlice S64x128 ![64, 0] (m ((c : Thread nD τ).loc main_arg2) : S128x128.Idx → EReal) slices_S128x128_S64x128_64_0 := by
    dsimp only [Gen.V, Gen.hostOps0]; after_results
  rw [e]
  funext i
  unfold lowerRows
  refine extractStridedSlice_apply _ _ _ i _ (fun a => ?_)
  match a with
  | ⟨0, _⟩ => show 64 + (i 0).val = 64 + (i 0).val; rfl
  | ⟨1, _⟩ => show (i 1).val = 0 + (i 1).val; omega

/-- The scores of all pairs over the arguments as launched. -/
theorem result_eq (c : Dev nD) :
    result m c = scores (m ((c : Thread nD τ).loc main_arg0)) (m ((c : Thread nD τ).loc main_arg1))
      (upperRows (m ((c : Thread nD τ).loc main_arg2))) (lowerRows (m ((c : Thread nD τ).loc main_arg2)))
      (m ((c : Thread nD τ).loc main_arg3)) (m ((c : Thread nD τ).loc main_arg4)) (m ((c : Thread nD τ).loc main_arg5))
      (m ((c : Thread nD τ).loc main_arg6)) (m ((c : Thread nD τ).loc main_arg7)) (m ((c : Thread nD τ).loc main_arg8))
      (m ((c : Thread nD τ).loc main_arg9)) (m ((c : Thread nD τ).loc main_arg10)) (m ((c : Thread nD τ).loc main_arg11))
      (m ((c : Thread nD τ).loc main_arg12)) (m ((c : Thread nD τ).loc main_arg13)) := by
  unfold result
  rw [upper_half, lower_half, V_main_arg0 m c, V_main_arg1 m c, V_main_arg3 m c, V_main_arg4 m c, V_main_arg5 m c,
    V_main_arg6 m c, V_main_arg7 m c, V_main_arg8 m c, V_main_arg9 m c, V_main_arg10 m c, V_main_arg11 m c,
    V_main_arg12 m c, V_main_arg13 m c]

/-- The kernel's run, read: the result array at the scores of all pairs, the arguments unchanged. -/
theorem run : θ_run defs (onTc (τ := τ) (main (F := Ideal))) ⟨m, fun _ => 0, ρ⟩ fun r => ∀ c : Dev nD,
      r.2.mem ((c : Thread nD τ).loc main_v2) = scores (m ((c : Thread nD τ).loc main_arg0)) (m ((c : Thread nD τ).loc main_arg1))
        (upperRows (m ((c : Thread nD τ).loc main_arg2))) (lowerRows (m ((c : Thread nD τ).loc main_arg2)))
        (m ((c : Thread nD τ).loc main_arg3)) (m ((c : Thread nD τ).loc main_arg4)) (m ((c : Thread nD τ).loc main_arg5))
        (m ((c : Thread nD τ).loc main_arg6)) (m ((c : Thread nD τ).loc main_arg7)) (m ((c : Thread nD τ).loc main_arg8))
        (m ((c : Thread nD τ).loc main_arg9)) (m ((c : Thread nD τ).loc main_arg10)) (m ((c : Thread nD τ).loc main_arg11))
        (m ((c : Thread nD τ).loc main_arg12)) (m ((c : Thread nD τ).loc main_arg13))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13) :=
  (θ_run defs _ _).mono (fun r h c => ⟨((h c).1.trans (final m c)).trans (result_eq m c), (h c).2⟩)
    (Cert.KernelIdeal.Value.run_blocks m ρ)

end Cert.Critic.Kernel

end
-- ==== Proof.RefValue.lean ====
/-
  The reference, entry by entry. The reference builds every pair's joined row (row j of x, row i of y) as row
  i·1024 + j of a 1048576 × 128 matrix, runs the six dense layers on that matrix, reshapes the one result column to
  1024 × 1024 and transposes. Every layer acts on one row at a time, so row r of each stage is the layer applied to
  row r of the stage before, and entry (p, q) of the transposed result is the perceptron on the joined row
  (row p of x, row q of y). The dense first layer on a joined row is the split first layer over the two halves of
  its weight, which is how the other program writes it.
-/
import proofs.«106550_j61692910240322_1_alg».proof.Proof.Gen.ReferenceIdeal.Read
import proofs.«106550_j61692910240322_1_alg».proof.Proof.Layers

noncomputable section

namespace Cert.Critic.Ref

open Idealize.ShloMosaic Idealize.ShloMosaic.ValueIdx Cert.ReferenceIdeal Cert.ReferenceIdeal.Gen Cert.ReferenceIdeal.Read Cert.Critic

/-- Row r of the matrix of pairs is the joined row (row r % 1024 of x, row r / 1024 of y). -/
theorem pairs_row (x0 x1 : (⟨S1024x64, .f32⟩ : BufTy).Contents (Elt Ideal)) (r : Fin 1048576) (k : Fin 128) :
    val_main_v5 (F := Ideal) x0 x1 (ix2 r k)
      = joined (fun j => x0 (ix2 (⟨r.val % 1024, by omega⟩ : Fin 1024) j))
          (fun j => x1 (ix2 (⟨r.val / 1024, by have := r.isLt; omega⟩ : Fin 1024) j)) k := by
  have hr : r.val < 1048576 := r.isLt
  have hk : k.val < 128 := k.isLt
  rw [val_main_v5_apply]
  have hi : idx_main_v5 (ix2 r k) = ix3 (⟨r.val / 1024, by omega⟩ : Fin 1024) (⟨r.val % 1024, by omega⟩ : Fin 1024) k :=
    funext fun d => Fin.ext (by
      match d with
      | ⟨0, _⟩ => show (r.val * 128 + k.val) / 131072 = r.val / 1024; omega
      | ⟨1, _⟩ => show (r.val * 128 + k.val) / 128 % 1024 = r.val % 1024; omega
      | ⟨2, _⟩ => show (r.val * 128 + k.val) % 128 = k.val; omega)
  rw [hi]
  unfold val_main_v4 joined
  by_cases h64 : k.val < 64
  · rw [dif_pos h64, concatenate_pair_apply_left (t := S1024x1024x128) (s₁ := S1024x1024x64) (s₂ := S1024x1024x64) (2 : Fin 3) _ _ _ _ rfl
      (ix3 (⟨r.val / 1024, by omega⟩ : Fin 1024) (⟨r.val % 1024, by omega⟩ : Fin 1024) (⟨k.val, h64⟩ : Fin 64))
      (fun d => by
        match d with
        | ⟨0, _⟩ => rfl
        | ⟨1, _⟩ => rfl
        | ⟨2, _⟩ => rfl)]
    rw [val_main_v1_apply, val_main_v0_apply]
    refine congrArg x0 (funext fun d => ?_)
    match d with
    | ⟨0, _⟩ => rfl
    | ⟨1, _⟩ => rfl
  · rw [dif_neg h64, concatenate_pair_apply_right (t := S1024x1024x128) (s₁ := S1024x1024x64) (s₂ := S1024x1024x64) (2 : Fin 3) _ _ _ _ rfl rfl
      (ix3 (⟨r.val / 1024, by omega⟩ : Fin 1024) (⟨r.val % 1024, by omega⟩ : Fin 1024) (⟨k.val - 64, by omega⟩ : Fin 64))
      (fun d hd => by
        match d with
        | ⟨0, _⟩ => rfl
        | ⟨1, _⟩ => rfl
        | ⟨2, _⟩ => exact absurd rfl hd)
      (by show k.val - 64 + 64 = k.val; omega)]
    rw [val_main_v3_apply, val_main_v2_apply]
    refine congrArg x1 (funext fun d => ?_)
    match d with
    | ⟨0, _⟩ => rfl
    | ⟨1, _⟩ => rfl

/-- Entry (p, q) of the reference's result: the perceptron on (row p of x, row q of y), its first layer split over
    the two halves of the first weight. -/
theorem result_entry (x0 x1 : (⟨S1024x64, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x10 : (⟨S64x64, .f32⟩ : BufTy).Contents (Elt Ideal))
    (x11 : (⟨S64, .f32⟩ : BufTy).Contents (Elt Ideal)) (x12 : (⟨S64x1, .f32⟩ : BufTy).Contents (Elt Ideal))
    (x13 : (⟨S1, .f32⟩ : BufTy).Contents (Elt Ideal)) (p q : Fin 1024) :
    val_main_v36 (F := Ideal) x0 x1 x2 x3 x4 x5 x6 x7 x8 x9 x10 x11 x12 x13 (ix2 p q)
      = upperLayers x4 x5 x6 x7 x8 x9 x10 x11 x12 x13
          (firstSplit (upperRows x2) (lowerRows x2) x3 (fun k => x0 (ix2 p k)) (fun k => x1 (ix2 q k))) := by
  have hp : p.val < 1024 := p.isLt
  have hq : q.val < 1024 := q.isLt
  rw [val_main_v36_apply, val_main_v35_apply]
  have hi : idx_main_v35 (idx_main_v36 (ix2 p q)) = ix2 (⟨q.val * 1024 + p.val, by omega⟩ : Fin 1048576) (0 : Fin 1) :=
    funext fun d => Fin.ext (by
      match d with
      | ⟨0, _⟩ => show (q.val * 1024 + p.val) / 1 = q.val * 1024 + p.val; omega
      | ⟨1, _⟩ => rfl)
  rw [hi]
  unfold upperLayers
  unfold val_main_v34 val_main_v33 val_main_v32 val_main_v31
  refine (host_score (R := 1048576) (N := 64) _ x12 x13 _ _ _).trans ?_
  refine congrArg (score x12 x13) (funext fun j4 => ?_)
  unfold val_main_v30 val_main_v29 val_main_v28 val_main_v27 val_main_v26 val_main_call4_v0 val_main_call4_cst
  refine (host_hidden (R := 1048576) (N := 64) (K := 64) _ x10 x11 _ _ _ _ j4).trans ?_
  refine congrFun (congrArg (hidden x10 x11) (funext fun j3 => ?_)) j4
  unfold val_main_v25 val_main_v24 val_main_v23 val_main_v22 val_main_v21 val_main_call3_v0 val_main_call3_cst
  refine (host_hidden (R := 1048576) (N := 64) (K := 64) _ x8 x9 _ _ _ _ j3).trans ?_
  refine congrFun (congrArg (hidden x8 x9) (funext fun j2 => ?_)) j3
  unfold val_main_v20 val_main_v19 val_main_v18 val_main_v17 val_main_v16 val_main_call2_v0 val_main_call2_cst
  refine (host_hidden (R := 1048576) (N := 128) (K := 64) _ x6 x7 _ _ _ _ j2).trans ?_
  refine congrFun (congrArg (hidden x6 x7) (funext fun j1 => ?_)) j2
  unfold val_main_v15 val_main_v14 val_main_v13 val_main_v12 val_main_v11 val_main_call1_v0 val_main_call1_cst
  refine (host_hidden (R := 1048576) (N := 128) (K := 128) _ x4 x5 _ _ _ _ j1).trans ?_
  refine congrFun (congrArg (hidden x4 x5) (funext fun j0 => ?_)) j1
  unfold val_main_v10 val_main_v9 val_main_v8 val_main_v7 val_main_v6 val_main_call0_v0 val_main_call0_cst
  refine (host_hidden (R := 1048576) (N := 128) (K := 128) _ x2 x3 _ _ _ _ j0).trans ?_
  rw [← hidden_joined]
  refine congrFun (congrArg (hidden x2 x3) (funext fun k => ?_)) j0
  rw [pairs_row]
  refine congrFun (congrArg₂ joined
    (funext fun j => congrArg x0 (congrArg (fun t => ix2 t j) (Fin.ext ?_)))
    (funext fun j => congrArg x1 (congrArg (fun t => ix2 t j) (Fin.ext ?_)))) k
  · show (q.val * 1024 + p.val) % 1024 = p.val
    omega
  · show (q.val * 1024 + p.val) / 1024 = q.val
    omega

/-- The reference's result is the scores of all pairs. -/
theorem result_eq (x0 x1 : (⟨S1024x64, .f32⟩ : BufTy).Contents (Elt Ideal)) (x2 : (⟨S128x128, .f32⟩ : BufTy).Contents (Elt Ideal))
    (x3 : (⟨S128, .f32⟩ : BufTy).Contents (Elt Ideal)) (x4 : (⟨S128x128, .f32⟩ : BufTy).Contents (Elt Ideal))
    (x5 : (⟨S128, .f32⟩ : BufTy).Contents (Elt Ideal)) (x6 : (⟨S128x64, .f32⟩ : BufTy).Contents (Elt Ideal))
    (x7 : (⟨S64, .f32⟩ : BufTy).Contents (Elt Ideal)) (x8 : (⟨S64x64, .f32⟩ : BufTy).Contents (Elt Ideal))
    (x9 : (⟨S64, .f32⟩ : BufTy).Contents (Elt Ideal)) (x10 : (⟨S64x64, .f32⟩ : BufTy).Contents (Elt Ideal))
    (x11 : (⟨S64, .f32⟩ : BufTy).Contents (Elt Ideal)) (x12 : (⟨S64x1, .f32⟩ : BufTy).Contents (Elt Ideal))
    (x13 : (⟨S1, .f32⟩ : BufTy).Contents (Elt Ideal)) :
    val_main_v36 (F := Ideal) x0 x1 x2 x3 x4 x5 x6 x7 x8 x9 x10 x11 x12 x13
      = scores x0 x1 (upperRows x2) (lowerRows x2) x3 x4 x5 x6 x7 x8 x9 x10 x11 x12 x13 := by
  funext i
  obtain ⟨p, q, rfl⟩ : ∃ (p q : Fin 1024), i = ix2 p q := ⟨i 0, i 1, eq_ix2 i⟩
  rw [result_entry]
  rfl

end Cert.Critic.Ref

end
-- ==== Proof.lean ====
/-
  The pairwise critic: a kernel that scores every pair (row p of x, row q of y) with a six-layer perceptron, against
  the reference that joins every pair into one 128-entry row, runs the dense layers on the 1048576 joined rows and
  transposes the 1024 × 1024 result.

  Over the extended reals both end with entry (p, q) = the perceptron's score of (row p of x, row q of y). The kernel
  tiles the result 8 × 8, and on a tile forms the first layer as (x block · upper half of W0) + (y block · lower half
  of W0) + b0 without ever joining the rows; the reference applies W0 to the joined row. These agree because the sum
  over the 128 joined entries is the sum over its first 64 plus the sum over its last 64 (Proof/Mlp.lean); nothing
  else differs but the layout: a change of float format is the identity, a block product into a zero accumulator
  and the host's dot product are the same sum, a lane sum with one weight column is the last dense layer. The law
  needs no finiteness, so the precondition is never opened.

  Proof/Mlp.lean           the perceptron on a row pair and the split of the first layer's sum
  Proof/LibDense.lean      a plain matrix product read at an entry
  Proof/LibPairGrid.lean   a grid of row pairs flattened to a matrix, and repeated rows, read at an entry
  Proof/Layers.lean        a rectified dense layer as a vector unit and as the host write it, at an entry
  Proof/KernelBody.lean    entry (a, b) of the block a grid point stores
  Proof/KernelValue.lean   the 64 blocks are blocks of one function; the kernel's run read
  Proof/RefValue.lean      the reference's stages row by row; its result is the same function
-/
import proofs.«106550_j61692910240322_1_alg».proof.Defs
import proofs.«106550_j61692910240322_1_alg».proof.Proof.Gen.Kernel
import proofs.«106550_j61692910240322_1_alg».proof.Proof.Gen.Kernel.Skeleton
import proofs.«106550_j61692910240322_1_alg».proof.Proof.Gen.Kernel.Launch
import proofs.«106550_j61692910240322_1_alg».proof.Proof.Gen.Kernel.Points
import proofs.«106550_j61692910240322_1_alg».proof.Proof.Gen.Kernel.Frame
import proofs.«106550_j61692910240322_1_alg».proof.Proof.Gen.KernelIdeal
import proofs.«106550_j61692910240322_1_alg».proof.Proof.Gen.KernelIdeal.Skeleton
import proofs.«106550_j61692910240322_1_alg».proof.Proof.Gen.KernelIdeal.Launch
import proofs.«106550_j61692910240322_1_alg».proof.Proof.Gen.KernelIdeal.Points
import proofs.«106550_j61692910240322_1_alg».proof.Proof.Gen.KernelIdeal.Frame
import proofs.«106550_j61692910240322_1_alg».proof.Proof.Gen.ReferenceIdeal
import proofs.«106550_j61692910240322_1_alg».proof.Proof.Gen.Pre_finite_inputs
import proofs.«106550_j61692910240322_1_alg».proof.Proof.Gen.KernelIdeal.Value
import proofs.«106550_j61692910240322_1_alg».proof.Proof.Gen.ReferenceIdeal.Run
import proofs.«106550_j61692910240322_1_alg».proof.Proof.Gen.ReferenceIdeal.Read
import proofs.«106550_j61692910240322_1_alg».proof.Proof.KernelValue
import proofs.«106550_j61692910240322_1_alg».proof.Proof.RefValue
import Idealize.ShloMosaic.Adequacy
import Idealize.ShloMosaic.Init

noncomputable section

namespace Cert.Proof

open Idealize.ShloMosaic Idealize.SL.Sem

/-- The word-level kernel terminates without a fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference is a straight line of host operations: its run, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The one rewrite of the idealization: the last hidden layer rounded to bf16 and widened back is the layer itself. -/
theorem preserves : Cert.preserves_Kernel_KernelIdeal :=
  IdealRules.truncf_extf.statement _ .f32 .bf16

/-- Both programs end with the scores of all pairs: the kernel block by block, the reference row by row. -/
theorem algebraic : Cert.algebraic_KernelIdeal_ReferenceIdeal := by
  intro m ρ m' ρ' _ hagree
  refine ⟨_, Cert.Critic.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13⟩ := hagree c
  rw [Cert.ReferenceIdeal.Read.val_main_v36_eq, Cert.Critic.Ref.result_eq, h0, h1, h2, h3, h4, h5, h6, h7, h8, h9, h10, h11, h12, h13]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
